-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S131072 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S4096x2048 : Shape := ⟨2, ![4096, 2048]⟩
abbrev S4096x32 : Shape := ⟨2, ![4096, 32]⟩
abbrev S4096x32x64 : Shape := ⟨3, ![4096, 32, 64]⟩
abbrev S256x2048 : Shape := ⟨2, ![256, 2048]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S8192x4096 : Shape := ⟨2, ![8192, 4096]⟩
abbrev S512x4096 : Shape := ⟨2, ![512, 4096]⟩
abbrev S512 : Shape := ⟨1, ![512]⟩
abbrev S512x512 : Shape := ⟨2, ![512, 512]⟩
abbrev S1x512 : Shape := ⟨2, ![1, 512]⟩

abbrev nBuf : Space → Nat
  | .hbm => 17
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S4096, .f32⟩
  | .hbm, ⟨4, _⟩ => ⟨S4096x2048, .i32⟩
  | .hbm, ⟨5, _⟩ => ⟨S4096x32, .f32⟩
  | .hbm, ⟨6, _⟩ => ⟨S4096x32x64, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S4096x2048x1, .bf16⟩
  | .hbm, ⟨11, _⟩ => ⟨S4096x2048x1, .bf16⟩
  | .hbm, ⟨12, _⟩ => ⟨S4096x2048x2, .bf16⟩
  | .hbm, ⟨13, _⟩ => ⟨S4096x4096, .bf16⟩
  | .hbm, ⟨14, _⟩ => ⟨S8192x4096, .f32⟩
  | .hbm, ⟨15, _⟩ => ⟨S8192x4096, .f32⟩
  | .hbm, ⟨16, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | .local _ .vmem, ⟨12, _⟩ => ⟨S512, .f32⟩
  | .local _ .vmem, ⟨13, _⟩ => ⟨S512, .f32⟩
  | .local _ .vmem, ⟨14, _⟩ => ⟨S512x512, .f32⟩
  | .local _ .vmem, ⟨15, _⟩ => ⟨S512x512, .f32⟩
  | .local _ .vmem, ⟨16, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8388608_S4096x2048 : S8388608.ShapeCasts S4096x2048
  shapeCasts_S131072_S4096x32 : S131072.ShapeCasts S4096x32
  bcast_S4096x32_S4096x32x64_0_1 : S4096x32.BroadcastsInDim S4096x32x64 (![0, 1] : Fin 2 → Fin S4096x32x64.rank)
  shapeCasts_S4096x32x64_S4096x2048 : S4096x32x64.ShapeCasts S4096x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .bf16 = 32 ∨ (Rect.block (s := S4096x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S8 : Shape := ⟨1, ![8]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S131072x128 : Shape := ⟨2, ![131072, 128]⟩
abbrev S131072x1 : Shape := ⟨2, ![131072, 1]⟩
abbrev S4096x4096 : Shape := ⟨2, ![4096, 4096]⟩
abbrev S1x1x4096 : Shape := ⟨3, ![1, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S4096, .f32⟩
  | .hbm, ⟨4, _⟩ => ⟨S8, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i32⟩
  | .hbm, ⟨27, _⟩ => ⟨S_, .i32⟩
  | .hbm, ⟨28, _⟩ => ⟨S16777216, .i32⟩
  | .hbm, ⟨29, _⟩ => ⟨S16777216, .i1⟩
  | .hbm, ⟨30, _⟩ => ⟨S_, .i32⟩
  | .hbm, ⟨31, _⟩ => ⟨S16777216, .i32⟩
  | .hbm, ⟨32, _⟩ => ⟨S16777216, .i32⟩
  | .hbm, ⟨33, _⟩ => ⟨S16777216, .i32⟩
  | .hbm, ⟨34, _⟩ => ⟨S16777216x1, .i32⟩
  | .hbm, ⟨35, _⟩ => ⟨S16777216, .f32⟩
  | .hbm, ⟨36, _⟩ => ⟨S_, .i32⟩
  | .hbm, ⟨37, _⟩ => ⟨S16777216, .i32⟩
  | .hbm, ⟨38, _⟩ => ⟨S16777216, .i1⟩
  | .hbm, ⟨39, _⟩ => ⟨S16777216, .f32⟩
  | .hbm, ⟨40, _⟩ => ⟨S16777216, .f32⟩
  | .hbm, ⟨41, _⟩ => ⟨S131072x128, .f32⟩
  | .hbm, ⟨42, _⟩ => ⟨S131072x1, .f32⟩
  | .hbm, ⟨43, _⟩ => ⟨S131072x128, .f32⟩
  | .hbm, ⟨44, _⟩ => ⟨S131072x128, .f32⟩
  | .hbm, ⟨45, _⟩ => ⟨S16777216, .f32⟩
  | .hbm, ⟨46, _⟩ => ⟨S4096x4096, .f32⟩
  | .hbm, ⟨47, _⟩ => ⟨S4x2048x4096, .f32⟩
  | .hbm, ⟨48, _⟩ => ⟨S1x1x4096, .f32⟩
  | .hbm, ⟨49, _⟩ => ⟨S4x2048x4096, .f32⟩
  | .hbm, ⟨50, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S16777216 : S131072x128.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8_S16777216x1_S16777216_n_0_n_n_0_1_1_wf : GatherDims.WF S8 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S8_S16777216x1_S16777216_n_0_n_n_0_1_1 : GatherDims S8 S16777216x1 S16777216 where
  offsetDims := []
  collapsedSliceDims := [0]
  operandBatchingDims := []
  startIndicesBatchingDims := []
  startIndexMap := [0]
  indexVectorDim := 1
  sliceSizes := ![1]
  wf := gather_S8_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BRegion0.lean ====
/-
  The first kernel region: the dequantizer. Its grid has 16 points; point t handles rows 256 t .. 256 t + 255 of the
  4096 x 2048 arrays. Two input windows (the packed words, the per-column scales) and two output windows (the decoded
  and scaled high codes, the decoded and scaled low codes), each a block of 256 x 2048 at block index (t, 0).
  The body loads both input blocks whole, computes the two products pointwise, and stores each whole into its output
  block. What is proved here: what each output block holds after the body as a function of the two input blocks, the
  body's triple, the proof data of the pipeline, and the body obligation at every point.
-/
import proofs.«415060_j42649025249834_3_alg».proof.Proof.Gen.Kernel.Launch
import proofs.«415060_j42649025249834_3_alg».proof.Proof.Gen.Kernel.Skeleton
import proofs.«415060_j42649025249834_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed-words window's staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body computes and leaves -/

/-- The one rectangle every access of the body goes through: the whole 256 x 2048 block. -/
abbrev r0 : Rect S256x2048 := Rect.unit (s := S256x2048) ![0, 0] S256x2048.size inb_S256x2048_S256x2048_0_0

/-- The decoded high codes times the scales, pointwise over a block: the body's first stored value as a function of the
    words and the scales it loaded. -/
def hiPay (x0 : Vec F S256x2048 .i32) (x1 : Vec F S256x2048 .f32) : FVec F S256x2048 .bf16 :=
  k0_pay13 (k0_pay3 x1) (k0_pay7 (F := F) x0) (k0_pay8 x0) (k0_pay9 (F := F) x0) (k0_pay10 x0) (k0_pay11 x0) k0_pay12

/-- The decoded low codes times the scales, pointwise over a block: the body's second stored value. -/
def loPay (x0 : Vec F S256x2048 .i32) (x1 : Vec F S256x2048 .f32) : FVec F S256x2048 .bf16 :=
  k0_pay1 (k0_pay3 x1) (k0_pay15 (k0_pay5 (F := F) x0)) (k0_pay16 (k0_pay5 (F := F) x0)) (k0_pay17 (k0_pay5 (F := F) x0))
    (k0_pay18 (k0_pay5 (F := F) x0)) (k0_pay19 (k0_pay5 (F := F) x0)) (Scalar.ofBits .f32 0x3F800000#32)

/-- The high-codes output block after the body: its one store, over the whole block. -/
def out0_2 (x0 : Vec F S256x2048 .i32) (x1 : Vec F S256x2048 .f32) : Vec F S256x2048 .bf16 :=
  View.canon [⟨r0, hiPay (View.ld x0 r0) (View.ld x1 r0)⟩]

/-- The low-codes output block after the body. -/
def out0_3 (x0 : Vec F S256x2048 .i32) (x1 : Vec F S256x2048 .f32) : Vec F S256x2048 .bf16 :=
  View.canon [⟨r0, loPay (View.ld x0 r0) (View.ld x1 r0)⟩]

/-- One store through the whole block covers it. -/
theorem cover0 (p0 : Vec F S256x2048 .bf16) (y : S256x2048.Idx) :
    ∃ pc ∈ ([⟨r0, p0⟩] : List (View.Piece (Elt F) S256x2048 .bf16)), y ∈ pc.1.set :=
  View.cover_of_tiled [⟨r0, p0⟩] S256x2048.size (by rfl) y

/-! ## The body's triple -/

set_option maxHeartbeats 2000000 in
/-- On whole staging buffers, the inputs' holding `x0` and `x1` and the outputs' anything, the body runs to the end,
    leaves the inputs as they were and each output at its function of the inputs. -/
theorem sound_kernel0 (c : Dev nD) (E : Set ℕ) (i : grid0.Coords)
    (arg1 : Memref sig .tc .vmem S256x2048 .i32) (harg1 : arg1.IsWhole) (arg2 : Memref sig .tc .vmem S256x2048 .f32) (harg2 : arg2.IsWhole)
    (arg3 : Memref sig .tc .vmem S256x2048 .bf16) (harg3 : arg3.IsWhole) (arg4 : Memref sig .tc .vmem S256x2048 .bf16) (harg4 : arg4.IsWhole)
    (x0 : Vec F S256x2048 .i32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the dequantizer's pipeline on core `c`: the arrays as the region finds them; after the body at
    point `t` each input's buffer at its block and each output's at its function of the two input blocks; the
    invariant the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1.lean ====
/-
  The second kernel region: the matrix product. Its grid is 16 x 8, point t = 8 i + j handling rows 512 i .. of the
  8192 x 4096 input and rows 512 j .. of the 4096 x 4096 weight matrix, and writing the 512 x 512 block (i, j) of the
  8192 x 4096 result. Three input windows (the input rows, the weight rows, the bias entries 512 j ..) and one output
  window. The kernel keeps a scratch buffer between points: at the points with j = 0 it stores the input block there
  (converted to the narrower float format), and at every point it reads the scratch, contracts it with the weight
  block over the shared axis of 4096, adds the bias along rows, and stores the output block whole.
  What is proved here: what the scratch and the output block hold after the body, point by point; the body's triple
  in its two cases; the pipeline's proof data, whose invariant carries the scratch at its named contents from point to
  point; and the body obligation at every point.
-/
import proofs.«415060_j42649025249834_3_alg».proof.Proof.Gen.Kernel.Launch
import proofs.«415060_j42649025249834_3_alg».proof.Proof.Gen.Kernel.Skeleton
import proofs.«415060_j42649025249834_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input rows' staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the weight rows' window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the bias window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes and leaves -/

/-- The whole 512 x 4096 block, -/
abbrev rX : Rect S512x4096 := Rect.unit (s := S512x4096) ![0, 0] S512x4096.size inb_S512x4096_S512x4096_0_0
/-- the whole 512-entry bias block, -/
abbrev rB : Rect S512 := Rect.unit (s := S512) ![0] S512.size inb_S512_S512_0
/-- and the whole 512 x 512 output block. -/
abbrev rO : Rect S512x512 := Rect.unit (s := S512x512) ![0, 0] S512x512.size inb_S512x512_S512x512_0_0

/-- What a point with j = 0 leaves in the scratch: the input block in the narrower format, stored whole. -/
def scOut (x0 : Vec F S512x4096 .f32) : Vec F S512x4096 .bf16 :=
  View.canon [⟨rX, k1_pay1 (View.ld x0 rX)⟩]

/-- What every point leaves in the output block: the scratch contracted with the weight block, plus the bias, stored
    whole. -/
def out1_3 (sc : Vec F S512x4096 .bf16) (x1 : Vec F S512x4096 .bf16) (x2 : Vec F S512 .f32) : Vec F S512x512 .f32 :=
  View.canon [⟨rO, k1_pay2 (View.ld sc rX) (View.ld x1 rX) (View.ld x2 rB)⟩]

theorem coverX (p0 : Vec F S512x4096 .bf16) (y : S512x4096.Idx) :
    ∃ pc ∈ ([⟨rX, p0⟩] : List (View.Piece (Elt F) S512x4096 .bf16)), y ∈ pc.1.set :=
  View.cover_of_tiled [⟨rX, p0⟩] S512x4096.size (by rfl) y
theorem coverO (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The branch on the inner grid coordinate -/

/-- The body's one condition: the inner grid coordinate j is zero (as the printed scalar chain states it). -/
abbrev cond1 (i : grid1.Coords) : Prop := (Scalar.cmpi .ne (Scalar.extui (Scalar.cmpi .eq (BitVec.ofNat 32 (i 1).val) 0#32)) 0#32) = 1#1
/-- It holds at the points that are multiples of 8: decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## The body's triple, in its two cases -/

set_option maxHeartbeats 2000000 in
/-- At a point with j = 0, on whole buffers — the inputs' at `x0`, `x1`, `x2`, the output's and the scratch at anything —
    the body runs to the end, leaves the inputs as they were, the scratch at the converted input block and the output
    at its function of that and the other two inputs. -/
theorem sound_kernel1_first (c : Dev nD) (E : Set ℕ) (i : grid1.Coords) (hc : cond1 i)
    (arg2 : Memref sig .tc .vmem S512x4096 .f32) (harg2 : arg2.IsWhole) (arg3 : Memref sig .tc .vmem S512x4096 .bf16) (harg3 : arg3.IsWhole)
    (arg4 : Memref sig .tc .vmem S512 .f32) (harg4 : arg4.IsWhole) (arg5 : Memref sig .tc .vmem S512x512 .f32) (harg5 : arg5.IsWhole)
    (arg6 : Memref sig .tc .vmem S512x4096 .bf16) (harg6 : arg6.IsWhole)
    (x0 : Vec F S512x4096 .f32) (x1 : Vec F S512x4096 .bf16) (x2 : Vec F S512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (scOut x0) x1 x2) ∗ owns (c : Thread nD τ) arg6 fullShare (scOut x0)) -∗ K ⟨⟩))
      ⊢ wp frame (wpE (defs₀ (F := F)) Variants.none c none) E (cc1__gemm_kernel i arg2 harg2 arg3 harg3 arg4 harg4 arg5 harg5 arg6 harg6) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_eq_canon _ _ _ (coverO _)).trans ?_
    unfold out1_3 scOut
    sl_unfold_words
    rw [View.readCov_eq_canon']
    rfl
  iexists _; isplitr
  swap; · iexact H6
  ipureintro
  sl_unfold_words
  exact View.read_writes_eq_canon _ _ _ (coverX _)

set_option maxHeartbeats 2000000 in
/-- At a point with j ≠ 0, the scratch holding `sc`: the body leaves the inputs and the scratch as they were and the
    output at its function of the scratch and the other two inputs. -/
theorem sound_kernel1_rest (c : Dev nD) (E : Set ℕ) (i : grid1.Coords) (hc : ¬cond1 i)
    (arg2 : Memref sig .tc .vmem S512x4096 .f32) (harg2 : arg2.IsWhole) (arg3 : Memref sig .tc .vmem S512x4096 .bf16) (harg3 : arg3.IsWhole)
    (arg4 : Memref sig .tc .vmem S512 .f32) (harg4 : arg4.IsWhole) (arg5 : Memref sig .tc .vmem S512x512 .f32) (harg5 : arg5.IsWhole)
    (arg6 : Memref sig .tc .vmem S512x4096 .bf16) (harg6 : arg6.IsWhole)
    (x0 : Vec F S512x4096 .f32) (x1 : Vec F S512x4096 .bf16) (x2 : Vec F S512 .f32) (sc : Vec F S512x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare sc
        ∗ (iprop(owns (c : Thread nD τ) arg2 fullShare x0 ∗ owns (c : Thread nD τ) arg3 fullShare x1 ∗ owns (c : Thread nD τ) arg4 fullShare x2
            ∗ owns (c : Thread nD τ) arg5 fullShare (out1_3 sc x1 x2) ∗ owns (c : Thread nD τ) arg6 fullShare sc) -∗ K ⟨⟩))
      ⊢ wp frame (wpE (defs₀ (F := F)) Variants.none c none) E (cc1__gemm_kernel i arg2 harg2 arg3 harg3 arg4 harg4 arg5 harg5 arg6 harg6) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverO _)
  iexists f6; isplitr; · ipureintro; rfl
  iexact H6

/-! ## The scratch, point by point -/

/-- What the scratch holds after the body at position `n`: at a multiple of 8 the converted input block of that
    point, otherwise what the point before left. -/
def scAt (c : Dev nD) : (n : ℕ) → n < cfg1.N → Vec F S512x4096 .bf16
  | 0, hn => scOut (iblk1 V c 0 ⟨0, hn⟩)
  | n + 1, hn => if (n + 1) % 8 = 0 then scOut (iblk1 V c 0 ⟨n + 1, hn⟩) else scAt c n (Nat.lt_of_succ_lt hn)

theorem scAt_first (c : Dev nD) (t : Fin cfg1.N) (h : t.val % 8 = 0) : scAt V c t.val t.isLt = scOut (iblk1 V c 0 t) := by
  obtain ⟨n, hn⟩ := t
  cases n with
  | zero => rfl
  | succ n => exact if_pos h

theorem scAt_rest (c : Dev nD) (t : Fin cfg1.N) (h : ¬t.val % 8 = 0) :
    scAt V c t.val t.isLt = scAt V c (t.val - 1) (Nat.lt_of_le_of_lt (Nat.sub_le _ _) t.isLt) := by
  obtain ⟨n, hn⟩ := t
  cases n with
  | zero => exact absurd (Nat.zero_mod _) h
  | succ n => exact if_neg h

/-! ## The region's invariant -/

/-- The scratch as a memref: the kernel's own whole scoped buffer. -/
abbrev scM : Memref sig .tc .vmem S512x4096 .bf16 := Memref.whole cc1_scratch0

/-- The core's scoped buffers that this region's windows do not stage — the other region's eight staging buffers, each
    whole at some contents — beside a statement `S` about the scratch. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region, with the scratch as a memref owned at some contents. -/
theorem PhiA1_eq (c : Dev nD) :
    (Pipeline.ΦA spec1 c : sProp 𝕄) = iprop(restWith c (iprop(∃ d, owns (c : Thread nD τ) scM fullShare d)) ∗ (∃ r, prngReg c r)) := by
  unfold Pipeline.ΦA; rw [scopedRest1_eq]; simp only [scM, owns_whole]; try rfl

/-- The invariant before position `n`: before the first point what the launch hands over (the scratch at anything);
    afterwards the same with the scratch at what the point before left. -/
def PhiS (c : Dev nD) : (n : ℕ) → n ≤ cfg1.N → sProp 𝕄
  | 0, _ => Pipeline.ΦA spec1 c
  | n + 1, hn => iprop(restWith c (owns (c : Thread nD τ) scM fullShare (scAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM fullShare (scAt V c n hn)) ∗ (∃ r, prngReg c r)) := rfl

theorem PhiS_pos (c : Dev nD) (n : ℕ) (h : n ≤ cfg1.N) (hz : n ≠ 0) :
    PhiS V c n h = iprop(restWith c (owns (c : Thread nD τ) scM fullShare (scAt V c (n - 1) (by omega))) ∗ (∃ r, prngReg c r)) := by
  cases n with
  | zero => exact absurd rfl hz
  | succ n => rfl

/-! ## The pipeline's proof data -/

/-- The proof data of the matrix product's pipeline on core `c`: the arrays as the region finds them; after the body at
    point `t` each input's buffer at its block and the output's at its function of the scratch and the two other input
    blocks; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt V c t.val t.isLt) (iblk1 V c 1 t) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scAt V c t.val t.isLt) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' buffers hold their blocks; the point's position modulo 8 says which case it is
    in; the invariant hands the body the scratch (at anything before the first point, else at what the point before
    left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  by_cases h0 : t.val % 8 = 0
  · rw [scAt_first V c t h0]
    by_cases hz : t.val = 0
    · rw [PhiS_castSucc V c t, PhiS_zero V c _ _ hz, PhiA1_eq]
      iintro ⟨⟨⟨R1, R2, R3, R4, R5, R6, R7, R8, HS⟩, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 R6 R7 R8 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [R1 R2 R3 R4 R5 R6 R7 R8 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [scAt_rest V c t h0]
    rw [PhiS_castSucc V c t, PhiS_pos V c _ _ hz]
    iintro ⟨⟨⟨R1, R2, R3, R4, R5, R6, R7, R8, HS⟩, Hg⟩, Ho, ⟨%d0, H0⟩, ⟨%d1, H1⟩, ⟨%d2, H2⟩, ⟨%d3, H3⟩⟩
    iapply (sound_kernel1_rest c Set.univ (grid1.coords t) (fun h => h0 ((hcond1 t).mp h)) _ _ _ _ _ _ _ _ _ _ (iblk1 V c 0 t) (iblk1 V c 1 t) (iblk1 V c 2 t) (scAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [R1 R2 R3 R4 R5 R6 R7 R8 HS Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the scratch's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨R1, R2, R3, R4, R5, R6, R7, R8, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

end Cert.Kernel.Hand

end
-- ==== Proof.BKRun.lean ====
/-
  The run of the whole program: @main is a stretch of host operations (the reshapes and the per-column expansion of
  the scales), the dequantizer region, a second stretch (the interleaving of the two decoded halves into the weight
  matrix and the flattening of the input), the matrix-product region, and a last reshape. Between two items every
  unscoped buffer of a core is held whole at named contents; each region's arrays are split out of those buffers at
  its entry and put back at its exit with each output array at what the pipeline's write-backs leave.
  What is proved: every weakly fair execution terminates without a fault, and at the end every unscoped buffer holds
  the last valuation. The frame (the arguments end as launched) and the result's value are read off that.
-/
import proofs.«415060_j42649025249834_3_alg».proof.Proof.Gen.Kernel.Launch
import proofs.«415060_j42649025249834_3_alg».proof.Proof.Gen.Kernel.Skeleton
import proofs.«415060_j42649025249834_3_alg».proof.Proof.Gen.Kernel.Points
import proofs.«415060_j42649025249834_3_alg».proof.Proof.Gen.Kernel.Regions
import proofs.«415060_j42649025249834_3_alg».proof.Proof.BRegion0
import proofs.«415060_j42649025249834_3_alg».proof.Proof.BRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions are entered with and what they leave -/

/-- The dequantizer's entry contents, read at the TensorCore's references. -/
abbrev E1 : (c : Dev nD) → (b : Ref sig .tc) → Buf (Elt F) ((c : Thread nD τ).loc b) := fun c b => V1 m c b

/-- After the dequantizer: its two output arrays at what the write-backs leave, every other buffer as entered. -/
def W2 (c : Dev nD) : Valuation τ sig (Elt F) :=
  Pipeline.withArrays spec0 c (V1 m c) fun w => (dat0 (E1 m) c).arrAt w cfg0.N

/-- What the dequantizer leaves, as the family the valuations between items are written over (read only at its two
    output arrays). -/
abbrev outs2 : Outs (F := F) := fun _ r c => W2 m c r

/-- The matrix product's entry contents. -/
abbrev E3 : (c : Dev nD) → (b : Ref sig .tc) → Buf (Elt F) ((c : Thread nD τ).loc b) := fun c b => V3 m (outs2 m) c b

/-- After the matrix product: its output array at what the write-backs leave, every other buffer as entered. -/
def W4 (c : Dev nD) : Valuation τ sig (Elt F) :=
  Pipeline.withArrays spec1 c (V3 m (outs2 m) c) fun w => (dat1 (E3 m) c).arrAt w cfg1.N

/-- What both regions leave: after item 1 the dequantizer's arrays, after item 3 the matrix product's. -/
def outsK : Outs (F := F) := fun j r c => match j with
  | 2 => W2 m c r
  | _ => W4 m c r

theorem outsK_2 (r : Ref sig .tc) (c : Dev nD) : outsK m 2 r c = W2 m c r := rfl
theorem outsK_4 (r : Ref sig .tc) (c : Dev nD) : outsK m 4 r c = W4 m c r := rfl

/-- The valuations up to the matrix product's entry only read what the dequantizer left. -/
theorem V2_outsK (c : Dev nD) : V2 m (outsK m) c = V2 m (outs2 m) c := rfl
theorem V3_outsK (c : Dev nD) : V3 m (outsK m) c = V3 m (outs2 m) c := rfl

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- At the dequantizer's exit each of its arrays holds what the pipeline leaves: an input as entered, an output the
    named contents. -/
theorem hF0 (c : Dev nD) (w : Fin cfg0.W) :
    (dat0 (E1 m) c).arrAt w cfg0.N = V2 m (outsK m) c (Pipeline.arrRef spec0 w) := by
  match w with
  | ⟨0, _⟩ => exact ((dat0 (E1 m) c).arrAt_in 0 rfl _).trans ((A_eq0 (E1 m) c 0).trans (V2_of m (outsK m) c main_v0 (by decide)).symm)
  | ⟨1, _⟩ => exact ((dat0 (E1 m) c).arrAt_in 1 rfl _).trans ((A_eq0 (E1 m) c 1).trans (V2_of m (outsK m) c main_v3 (by decide)).symm)
  | ⟨2, _⟩ =>
    refine (W2_arr m c 2).symm.trans ?_
    show outsK m 2 main_v4_0 c = V2 m (outsK m) c main_v4_0
    simp only [V2, Function.update_of_ne (StableHlo.devRef_ne_of_ne (by decide : main_v4_0 ≠ main_v4_1) : (Proc.devRef .tc main_v4_0 : DevRef τ sig) ≠ Proc.devRef .tc main_v4_1), Function.update_self]
  | ⟨3, _⟩ =>
    refine (W2_arr m c 3).symm.trans ?_
    show outsK m 2 main_v4_1 c = V2 m (outsK m) c main_v4_1
    simp only [V2, Function.update_self]

/-- Every other buffer is as the region found it. -/
theorem hrest0 (c : Dev nD) : ∀ b, b ∉ Finset.univ.image (Pipeline.arrRef spec0) → (V2 m (outsK m) c b : Buf (Elt F) ((c : Thread nD τ).loc b)) = E1 m c b :=
  fun b hb => V2_of m (outsK m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

/-- The same at the matrix product's exit. -/
theorem hF1 (c : Dev nD) (w : Fin cfg1.W) :
    (dat1 (E3 m) c).arrAt w cfg1.N = V4 m (outsK m) c (Pipeline.arrRef spec1 w) := by
  match w with
  | ⟨0, _⟩ => exact ((dat1 (E3 m) c).arrAt_in 0 rfl _).trans ((A_eq1 (E3 m) c 0).trans (V4_of m (outsK m) c main_v9 (by decide)).symm)
  | ⟨1, _⟩ => exact ((dat1 (E3 m) c).arrAt_in 1 rfl _).trans ((A_eq1 (E3 m) c 1).trans (V4_of m (outsK m) c main_v8 (by decide)).symm)
  | ⟨2, _⟩ => exact ((dat1 (E3 m) c).arrAt_in 2 rfl _).trans ((A_eq1 (E3 m) c 2).trans (V4_of m (outsK m) c main_arg3 (by decide)).symm)
  | ⟨3, _⟩ =>
    refine (W4_arr m c 3).symm.trans ?_
    show outsK m 4 main_v10 c = V4 m (outsK m) c main_v10
    simp only [V4, Function.update_self]

theorem hrest1 (c : Dev nD) : ∀ b, b ∉ Finset.univ.image (Pipeline.arrRef spec1) → (V4 m (outsK m) c b : Buf (Elt F) ((c : Thread nD τ).loc b)) = E3 m c b :=
  fun b hb => V4_of m (outsK m) c b (by
    intro h
    simp only [List.mem_cons, List.mem_nil_iff, or_false] at h
    rcases h with rfl
    exact hb (Finset.mem_image.mpr ⟨3, Finset.mem_univ _, rfl⟩))

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The dequantizer over the thread state: entered from every unscoped buffer at the contents after the first host
    stretch, left at the contents with its two output arrays replaced. Its arrays are split out of the unscoped
    buffers and put back; the generator register goes into the invariant and comes out; nothing is owed; the kernel
    has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product over the thread state: entered from the contents after the second host stretch, left at the
    contents with its output array replaced. Its invariant is entered from what the launch hands a region and gives
    the same back after the last point, the scratch's contents forgotten. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => V4 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- What rides along ends owing nothing. -/
theorem R_owes (c : Dev nD) : (R c : sProp 𝕄) ⊢ iprop(∃ W, owes (c : Thread nD τ) (0 : CellTallies nD τ sig Unit) W) := by
  iintro ⟨-, H⟩; iexact H

set_option backward.isDefEq.respectTransparency.types false in
/-- THE RUN. From any memory with zero counters every weakly fair execution of @main terminates, nothing faulting,
    and every final state holds every unscoped buffer of every core at the last valuation: the launch contents taken
    through the three host stretches and the two regions' write-backs. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V5 m (outsK m) c b) := by
  refine Pipeline.θ_run_regions_kit_dev (pcfgs (F := F)) adm (pdats m) () cellOf_inj emb₁ defs₀ 𝒱₀ L lv m ρ main
    (segs m (outsK m) 𝒱₀ L lv (fun _ c => R c) () (pdats m) (reg0 m) (reg1 m))
    (fun c Q => by
      rewrite [main_chain c, Seg.run_eq_chain,
        show (segs m (outsK m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m (outsK m) c))
    (hch := fun c => ⟨.rfl, .rfl, .rfl, .rfl, .rfl, sep_mono .rfl (R_owes c)⟩)
    (hinit := ?_)
    (QY := fun c s => ∀ b ∈ Pipeline.ucRefs τ sig, s.mem ((c : Thread nD τ).1, b) = V5 m (outsK m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outsK m) c) s') $$ [Hh HSI]
    · isplitl [Hh] <;> iassumption
    icases Hr with ⟨%h, HSI⟩
    imodintro
    isplitr
    · ipureintro; exact h
    · iexact HSI

/-! ## What is read off the run -/

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V5_main_arg0 m (outsK m) c),
     (h c _ (mem_uc main_arg1 (by decide))).trans (V5_main_arg1 m (outsK m) c),
     (h c _ (mem_uc main_arg2 (by decide))).trans (V5_main_arg2 m (outsK m) c),
     (h c _ (mem_uc main_arg3 (by decide))).trans (V5_main_arg3 m (outsK m) c)⟩) (run_all m ρ)

/-- THE RESULT beside the frame: the result buffer ends at the last valuation's contents. -/
theorem run_result : θ_run defs (onTc (τ := τ) (main (F := F))) ⟨m, fun _ => 0, ρ⟩ (fun r => ∀ c : Dev nD,
      r.2.mem ((c.tc : Thread nD τ).loc main_v11) = V5 m (outsK m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v11 (by decide)),
     (h c _ (mem_uc main_arg0 (by decide))).trans (V5_main_arg0 m (outsK m) c),
     (h c _ (mem_uc main_arg1 (by decide))).trans (V5_main_arg1 m (outsK m) c),
     (h c _ (mem_uc main_arg2 (by decide))).trans (V5_main_arg2 m (outsK m) c),
     (h c _ (mem_uc main_arg3 (by decide))).trans (V5_main_arg3 m (outsK m) c)⟩) (run_all m ρ)

end Cert.Kernel.Hand

end
-- ==== Proof.Region0.lean ====
/-
  The first kernel region: the dequantizer. Its grid has 16 points; point t handles rows 256 t .. 256 t + 255 of the
  4096 x 2048 arrays. Two input windows (the packed words, the per-column scales) and two output windows (the decoded
  and scaled high codes, the decoded and scaled low codes), each a block of 256 x 2048 at block index (t, 0).
  The body loads both input blocks whole, computes the two products pointwise, and stores each whole into its output
  block. What is proved here: what each output block holds after the body as a function of the two input blocks, the
  body's triple, the proof data of the pipeline, and the body obligation at every point.
-/
import proofs.«415060_j42649025249834_3_alg».proof.Proof.Gen.KernelIdeal.Launch
import proofs.«415060_j42649025249834_3_alg».proof.Proof.Gen.KernelIdeal.Skeleton
import proofs.«415060_j42649025249834_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed-words window's staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body computes and leaves -/

/-- The one rectangle every access of the body goes through: the whole 256 x 2048 block. -/
abbrev r0 : Rect S256x2048 := Rect.unit (s := S256x2048) ![0, 0] S256x2048.size inb_S256x2048_S256x2048_0_0

/-- The decoded high codes times the scales, pointwise over a block: the body's first stored value as a function of the
    words and the scales it loaded. -/
def hiPay (x0 : Vec F S256x2048 .i32) (x1 : Vec F S256x2048 .f32) : FVec F S256x2048 .bf16 :=
  k0_pay13 (k0_pay3 x1) (k0_pay7 (F := F) x0) (k0_pay8 x0) (k0_pay9 (F := F) x0) (k0_pay10 x0) (k0_pay11 x0) k0_pay12

/-- The decoded low codes times the scales, pointwise over a block: the body's second stored value. -/
def loPay (x0 : Vec F S256x2048 .i32) (x1 : Vec F S256x2048 .f32) : FVec F S256x2048 .bf16 :=
  k0_pay1 (k0_pay3 x1) (k0_pay15 (k0_pay5 (F := F) x0)) (k0_pay16 (k0_pay5 (F := F) x0)) (k0_pay17 (k0_pay5 (F := F) x0))
    (k0_pay18 (k0_pay5 (F := F) x0)) (k0_pay19 (k0_pay5 (F := F) x0)) (Scalar.ofBits .f32 0x3F800000#32)

/-- The high-codes output block after the body: its one store, over the whole block. -/
def out0_2 (x0 : Vec F S256x2048 .i32) (x1 : Vec F S256x2048 .f32) : Vec F S256x2048 .bf16 :=
  View.canon [⟨r0, hiPay (View.ld x0 r0) (View.ld x1 r0)⟩]

/-- The low-codes output block after the body. -/
def out0_3 (x0 : Vec F S256x2048 .i32) (x1 : Vec F S256x2048 .f32) : Vec F S256x2048 .bf16 :=
  View.canon [⟨r0, loPay (View.ld x0 r0) (View.ld x1 r0)⟩]

/-- One store through the whole block covers it. -/
theorem cover0 (p0 : Vec F S256x2048 .bf16) (y : S256x2048.Idx) :
    ∃ pc ∈ ([⟨r0, p0⟩] : List (View.Piece (Elt F) S256x2048 .bf16)), y ∈ pc.1.set :=
  View.cover_of_tiled [⟨r0, p0⟩] S256x2048.size (by rfl) y

/-! ## The body's triple -/

set_option maxHeartbeats 2000000 in
/-- On whole staging buffers, the inputs' holding `x0` and `x1` and the outputs' anything, the body runs to the end,
    leaves the inputs as they were and each output at its function of the inputs. -/
theorem sound_kernel0 (c : Dev nD) (E : Set ℕ) (i : grid0.Coords)
    (arg1 : Memref sig .tc .vmem S256x2048 .i32) (harg1 : arg1.IsWhole) (arg2 : Memref sig .tc .vmem S256x2048 .f32) (harg2 : arg2.IsWhole)
    (arg3 : Memref sig .tc .vmem S256x2048 .bf16) (harg3 : arg3.IsWhole) (arg4 : Memref sig .tc .vmem S256x2048 .bf16) (harg4 : arg4.IsWhole)
    (x0 : Vec F S256x2048 .i32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the dequantizer's pipeline on core `c`: the arrays as the region finds them; after the body at
    point `t` each input's buffer at its block and each output's at its function of the two input blocks; the
    invariant the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel region: the matrix product. Its grid is 16 x 8, point t = 8 i + j handling rows 512 i .. of the
  8192 x 4096 input and rows 512 j .. of the 4096 x 4096 weight matrix, and writing the 512 x 512 block (i, j) of the
  8192 x 4096 result. Three input windows (the input rows, the weight rows, the bias entries 512 j ..) and one output
  window. The kernel keeps a scratch buffer between points: at the points with j = 0 it stores the input block there
  (converted to the narrower float format), and at every point it reads the scratch, contracts it with the weight
  block over the shared axis of 4096, adds the bias along rows, and stores the output block whole.
  What is proved here: what the scratch and the output block hold after the body, point by point; the body's triple
  in its two cases; the pipeline's proof data, whose invariant carries the scratch at its named contents from point to
  point; and the body obligation at every point.
-/
import proofs.«415060_j42649025249834_3_alg».proof.Proof.Gen.KernelIdeal.Launch
import proofs.«415060_j42649025249834_3_alg».proof.Proof.Gen.KernelIdeal.Skeleton
import proofs.«415060_j42649025249834_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input rows' staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the weight rows' window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the bias window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes and leaves -/

/-- The whole 512 x 4096 block, -/
abbrev rX : Rect S512x4096 := Rect.unit (s := S512x4096) ![0, 0] S512x4096.size inb_S512x4096_S512x4096_0_0
/-- the whole 512-entry bias block, -/
abbrev rB : Rect S512 := Rect.unit (s := S512) ![0] S512.size inb_S512_S512_0
/-- and the whole 512 x 512 output block. -/
abbrev rO : Rect S512x512 := Rect.unit (s := S512x512) ![0, 0] S512x512.size inb_S512x512_S512x512_0_0

/-- What a point with j = 0 leaves in the scratch: the input block in the narrower format, stored whole. -/
def scOut (x0 : Vec F S512x4096 .f32) : Vec F S512x4096 .bf16 :=
  View.canon [⟨rX, k1_pay1 (View.ld x0 rX)⟩]

/-- What every point leaves in the output block: the scratch contracted with the weight block, plus the bias, stored
    whole. -/
def out1_3 (sc : Vec F S512x4096 .bf16) (x1 : Vec F S512x4096 .bf16) (x2 : Vec F S512 .f32) : Vec F S512x512 .f32 :=
  View.canon [⟨rO, k1_pay2 (View.ld sc rX) (View.ld x1 rX) (View.ld x2 rB)⟩]

theorem coverX (p0 : Vec F S512x4096 .bf16) (y : S512x4096.Idx) :
    ∃ pc ∈ ([⟨rX, p0⟩] : List (View.Piece (Elt F) S512x4096 .bf16)), y ∈ pc.1.set :=
  View.cover_of_tiled [⟨rX, p0⟩] S512x4096.size (by rfl) y
theorem coverO (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The branch on the inner grid coordinate -/

/-- The body's one condition: the inner grid coordinate j is zero (as the printed scalar chain states it). -/
abbrev cond1 (i : grid1.Coords) : Prop := (Scalar.cmpi .ne (Scalar.extui (Scalar.cmpi .eq (BitVec.ofNat 32 (i 1).val) 0#32)) 0#32) = 1#1
/-- It holds at the points that are multiples of 8: decided over the grid. -/
theorem hcond1 : ∀ t : Fin cfg1.N, cond1 (grid1.coords t) ↔ t.val % 8 = 0 :=
  (by decide +kernel : ∀ t : Fin grid1.N, cond1 (grid1.coords t) ↔ t.val % 8 = 0)

/-! ## The body's triple, in its two cases -/

set_option maxHeartbeats 2000000 in
/-- At a point with j = 0, on whole buffers — the inputs' at `x0`, `x1`, `x2`, the output's and the scratch at anything —
    the body runs to the end, leaves the inputs as they were, the scratch at the converted input block and the output
    at its function of that and the other two inputs. -/
theorem sound_kernel1_first (c : Dev nD) (E : Set ℕ) (i : grid1.Coords) (hc : cond1 i)
    (arg2 : Memref sig .tc .vmem S512x4096 .f32) (harg2 : arg2.IsWhole) (arg3 : Memref sig .tc .vmem S512x4096 .bf16) (harg3 : arg3.IsWhole)
    (arg4 : Memref sig .tc .vmem S512 .f32) (harg4 : arg4.IsWhole) (arg5 : Memref sig .tc .vmem S512x512 .f32) (harg5 : arg5.IsWhole)
    (arg6 : Memref sig .tc .vmem S512x4096 .bf16) (harg6 : arg6.IsWhole)
    (x0 : Vec F S512x4096 .f32) (x1 : Vec F S512x4096 .bf16) (x2 : Vec F S512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (scOut x0) x1 x2) ∗ owns (c : Thread nD τ) arg6 fullShare (scOut x0)) -∗ K ⟨⟩))
      ⊢ wp frame (wpE (defs₀ (F := F)) Variants.none c none) E (cc1__gemm_kernel i arg2 harg2 arg3 harg3 arg4 harg4 arg5 harg5 arg6 harg6) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_eq_canon _ _ _ (coverO _)).trans ?_
    unfold out1_3 scOut
    sl_unfold_words
    rw [View.readCov_eq_canon']
    rfl
  iexists _; isplitr
  swap; · iexact H6
  ipureintro
  sl_unfold_words
  exact View.read_writes_eq_canon _ _ _ (coverX _)

set_option maxHeartbeats 2000000 in
/-- At a point with j ≠ 0, the scratch holding `sc`: the body leaves the inputs and the scratch as they were and the
    output at its function of the scratch and the other two inputs. -/
theorem sound_kernel1_rest (c : Dev nD) (E : Set ℕ) (i : grid1.Coords) (hc : ¬cond1 i)
    (arg2 : Memref sig .tc .vmem S512x4096 .f32) (harg2 : arg2.IsWhole) (arg3 : Memref sig .tc .vmem S512x4096 .bf16) (harg3 : arg3.IsWhole)
    (arg4 : Memref sig .tc .vmem S512 .f32) (harg4 : arg4.IsWhole) (arg5 : Memref sig .tc .vmem S512x512 .f32) (harg5 : arg5.IsWhole)
    (arg6 : Memref sig .tc .vmem S512x4096 .bf16) (harg6 : arg6.IsWhole)
    (x0 : Vec F S512x4096 .f32) (x1 : Vec F S512x4096 .bf16) (x2 : Vec F S512 .f32) (sc : Vec F S512x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare sc
        ∗ (iprop(owns (c : Thread nD τ) arg2 fullShare x0 ∗ owns (c : Thread nD τ) arg3 fullShare x1 ∗ owns (c : Thread nD τ) arg4 fullShare x2
            ∗ owns (c : Thread nD τ) arg5 fullShare (out1_3 sc x1 x2) ∗ owns (c : Thread nD τ) arg6 fullShare sc) -∗ K ⟨⟩))
      ⊢ wp frame (wpE (defs₀ (F := F)) Variants.none c none) E (cc1__gemm_kernel i arg2 harg2 arg3 harg3 arg4 harg4 arg5 harg5 arg6 harg6) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverO _)
  iexists f6; isplitr; · ipureintro; rfl
  iexact H6

/-! ## The scratch, point by point -/

/-- What the scratch holds after the body at position `n`: at a multiple of 8 the converted input block of that
    point, otherwise what the point before left. -/
def scAt (c : Dev nD) : (n : ℕ) → n < cfg1.N → Vec F S512x4096 .bf16
  | 0, hn => scOut (iblk1 V c 0 ⟨0, hn⟩)
  | n + 1, hn => if (n + 1) % 8 = 0 then scOut (iblk1 V c 0 ⟨n + 1, hn⟩) else scAt c n (Nat.lt_of_succ_lt hn)

theorem scAt_first (c : Dev nD) (t : Fin cfg1.N) (h : t.val % 8 = 0) : scAt V c t.val t.isLt = scOut (iblk1 V c 0 t) := by
  obtain ⟨n, hn⟩ := t
  cases n with
  | zero => rfl
  | succ n => exact if_pos h

theorem scAt_rest (c : Dev nD) (t : Fin cfg1.N) (h : ¬t.val % 8 = 0) :
    scAt V c t.val t.isLt = scAt V c (t.val - 1) (Nat.lt_of_le_of_lt (Nat.sub_le _ _) t.isLt) := by
  obtain ⟨n, hn⟩ := t
  cases n with
  | zero => exact absurd (Nat.zero_mod _) h
  | succ n => exact if_neg h

/-! ## The region's invariant -/

/-- The scratch as a memref: the kernel's own whole scoped buffer. -/
abbrev scM : Memref sig .tc .vmem S512x4096 .bf16 := Memref.whole cc1_scratch0

/-- The core's scoped buffers that this region's windows do not stage — the other region's eight staging buffers, each
    whole at some contents — beside a statement `S` about the scratch. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the launch hands the region, with the scratch as a memref owned at some contents. -/
theorem PhiA1_eq (c : Dev nD) :
    (Pipeline.ΦA spec1 c : sProp 𝕄) = iprop(restWith c (iprop(∃ d, owns (c : Thread nD τ) scM fullShare d)) ∗ (∃ r, prngReg c r)) := by
  unfold Pipeline.ΦA; rw [scopedRest1_eq]; simp only [scM, owns_whole]; try rfl

/-- The invariant before position `n`: before the first point what the launch hands over (the scratch at anything);
    afterwards the same with the scratch at what the point before left. -/
def PhiS (c : Dev nD) : (n : ℕ) → n ≤ cfg1.N → sProp 𝕄
  | 0, _ => Pipeline.ΦA spec1 c
  | n + 1, hn => iprop(restWith c (owns (c : Thread nD τ) scM fullShare (scAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM fullShare (scAt V c n hn)) ∗ (∃ r, prngReg c r)) := rfl

theorem PhiS_pos (c : Dev nD) (n : ℕ) (h : n ≤ cfg1.N) (hz : n ≠ 0) :
    PhiS V c n h = iprop(restWith c (owns (c : Thread nD τ) scM fullShare (scAt V c (n - 1) (by omega))) ∗ (∃ r, prngReg c r)) := by
  cases n with
  | zero => exact absurd rfl hz
  | succ n => rfl

/-! ## The pipeline's proof data -/

/-- The proof data of the matrix product's pipeline on core `c`: the arrays as the region finds them; after the body at
    point `t` each input's buffer at its block and the output's at its function of the scratch and the two other input
    blocks; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scAt V c t.val t.isLt) (iblk1 V c 1 t) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (scAt V c t.val t.isLt) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' buffers hold their blocks; the point's position modulo 8 says which case it is
    in; the invariant hands the body the scratch (at anything before the first point, else at what the point before
    left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3]
  by_cases h0 : t.val % 8 = 0
  · rw [scAt_first V c t h0]
    by_cases hz : t.val = 0
    · rw [PhiS_castSucc V c t, PhiS_zero V c _ _ hz, PhiA1_eq]
      iintro ⟨⟨⟨R1, R2, R3, R4, R5, R6, R7, R8, HS⟩, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 R6 R7 R8 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (sound_kernel1_first c Set.univ (grid1.coords t) ((hcond1 t).mpr h0) _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [R1 R2 R3 R4 R5 R6 R7 R8 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [scAt_rest V c t h0]
    rw [PhiS_castSucc V c t, PhiS_pos V c _ _ hz]
    iintro ⟨⟨⟨R1, R2, R3, R4, R5, R6, R7, R8, HS⟩, Hg⟩, Ho, ⟨%d0, H0⟩, ⟨%d1, H1⟩, ⟨%d2, H2⟩, ⟨%d3, H3⟩⟩
    iapply (sound_kernel1_rest c Set.univ (grid1.coords t) (fun h => h0 ((hcond1 t).mp h)) _ _ _ _ _ _ _ _ _ _ (iblk1 V c 0 t) (iblk1 V c 1 t) (iblk1 V c 2 t) (scAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [R1 R2 R3 R4 R5 R6 R7 R8 HS Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the scratch's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨R1, R2, R3, R4, R5, R6, R7, R8, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

end Cert.KernelIdeal.Hand

end
-- ==== Proof.KRun.lean ====
/-
  The run of the whole program: @main is a stretch of host operations (the reshapes and the per-column expansion of
  the scales), the dequantizer region, a second stretch (the interleaving of the two decoded halves into the weight
  matrix and the flattening of the input), the matrix-product region, and a last reshape. Between two items every
  unscoped buffer of a core is held whole at named contents; each region's arrays are split out of those buffers at
  its entry and put back at its exit with each output array at what the pipeline's write-backs leave.
  What is proved: every weakly fair execution terminates without a fault, and at the end every unscoped buffer holds
  the last valuation. The frame (the arguments end as launched) and the result's value are read off that.
-/
import proofs.«415060_j42649025249834_3_alg».proof.Proof.Gen.KernelIdeal.Launch
import proofs.«415060_j42649025249834_3_alg».proof.Proof.Gen.KernelIdeal.Skeleton
import proofs.«415060_j42649025249834_3_alg».proof.Proof.Gen.KernelIdeal.Points
import proofs.«415060_j42649025249834_3_alg».proof.Proof.Gen.KernelIdeal.Regions
import proofs.«415060_j42649025249834_3_alg».proof.Proof.Region0
import proofs.«415060_j42649025249834_3_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions are entered with and what they leave -/

/-- The dequantizer's entry contents, read at the TensorCore's references. -/
abbrev E1 : (c : Dev nD) → (b : Ref sig .tc) → Buf (Elt F) ((c : Thread nD τ).loc b) := fun c b => V1 m c b

/-- After the dequantizer: its two output arrays at what the write-backs leave, every other buffer as entered. -/
def W2 (c : Dev nD) : Valuation τ sig (Elt F) :=
  Pipeline.withArrays spec0 c (V1 m c) fun w => (dat0 (E1 m) c).arrAt w cfg0.N

/-- What the dequantizer leaves, as the family the valuations between items are written over (read only at its two
    output arrays). -/
abbrev outs2 : Outs (F := F) := fun _ r c => W2 m c r

/-- The matrix product's entry contents. -/
abbrev E3 : (c : Dev nD) → (b : Ref sig .tc) → Buf (Elt F) ((c : Thread nD τ).loc b) := fun c b => V3 m (outs2 m) c b

/-- After the matrix product: its output array at what the write-backs leave, every other buffer as entered. -/
def W4 (c : Dev nD) : Valuation τ sig (Elt F) :=
  Pipeline.withArrays spec1 c (V3 m (outs2 m) c) fun w => (dat1 (E3 m) c).arrAt w cfg1.N

/-- What both regions leave: after item 1 the dequantizer's arrays, after item 3 the matrix product's. -/
def outsK : Outs (F := F) := fun j r c => match j with
  | 2 => W2 m c r
  | _ => W4 m c r

theorem outsK_2 (r : Ref sig .tc) (c : Dev nD) : outsK m 2 r c = W2 m c r := rfl
theorem outsK_4 (r : Ref sig .tc) (c : Dev nD) : outsK m 4 r c = W4 m c r := rfl

/-- The valuations up to the matrix product's entry only read what the dequantizer left. -/
theorem V2_outsK (c : Dev nD) : V2 m (outsK m) c = V2 m (outs2 m) c := rfl
theorem V3_outsK (c : Dev nD) : V3 m (outsK m) c = V3 m (outs2 m) c := rfl

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- At the dequantizer's exit each of its arrays holds what the pipeline leaves: an input as entered, an output the
    named contents. -/
theorem hF0 (c : Dev nD) (w : Fin cfg0.W) :
    (dat0 (E1 m) c).arrAt w cfg0.N = V2 m (outsK m) c (Pipeline.arrRef spec0 w) := by
  match w with
  | ⟨0, _⟩ => exact ((dat0 (E1 m) c).arrAt_in 0 rfl _).trans ((A_eq0 (E1 m) c 0).trans (V2_of m (outsK m) c main_v0 (by decide)).symm)
  | ⟨1, _⟩ => exact ((dat0 (E1 m) c).arrAt_in 1 rfl _).trans ((A_eq0 (E1 m) c 1).trans (V2_of m (outsK m) c main_v3 (by decide)).symm)
  | ⟨2, _⟩ =>
    refine (W2_arr m c 2).symm.trans ?_
    show outsK m 2 main_v4_0 c = V2 m (outsK m) c main_v4_0
    simp only [V2, Function.update_of_ne (StableHlo.devRef_ne_of_ne (by decide : main_v4_0 ≠ main_v4_1) : (Proc.devRef .tc main_v4_0 : DevRef τ sig) ≠ Proc.devRef .tc main_v4_1), Function.update_self]
  | ⟨3, _⟩ =>
    refine (W2_arr m c 3).symm.trans ?_
    show outsK m 2 main_v4_1 c = V2 m (outsK m) c main_v4_1
    simp only [V2, Function.update_self]

/-- Every other buffer is as the region found it. -/
theorem hrest0 (c : Dev nD) : ∀ b, b ∉ Finset.univ.image (Pipeline.arrRef spec0) → (V2 m (outsK m) c b : Buf (Elt F) ((c : Thread nD τ).loc b)) = E1 m c b :=
  fun b hb => V2_of m (outsK m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

/-- The same at the matrix product's exit. -/
theorem hF1 (c : Dev nD) (w : Fin cfg1.W) :
    (dat1 (E3 m) c).arrAt w cfg1.N = V4 m (outsK m) c (Pipeline.arrRef spec1 w) := by
  match w with
  | ⟨0, _⟩ => exact ((dat1 (E3 m) c).arrAt_in 0 rfl _).trans ((A_eq1 (E3 m) c 0).trans (V4_of m (outsK m) c main_v9 (by decide)).symm)
  | ⟨1, _⟩ => exact ((dat1 (E3 m) c).arrAt_in 1 rfl _).trans ((A_eq1 (E3 m) c 1).trans (V4_of m (outsK m) c main_v8 (by decide)).symm)
  | ⟨2, _⟩ => exact ((dat1 (E3 m) c).arrAt_in 2 rfl _).trans ((A_eq1 (E3 m) c 2).trans (V4_of m (outsK m) c main_arg3 (by decide)).symm)
  | ⟨3, _⟩ =>
    refine (W4_arr m c 3).symm.trans ?_
    show outsK m 4 main_v10 c = V4 m (outsK m) c main_v10
    simp only [V4, Function.update_self]

theorem hrest1 (c : Dev nD) : ∀ b, b ∉ Finset.univ.image (Pipeline.arrRef spec1) → (V4 m (outsK m) c b : Buf (Elt F) ((c : Thread nD τ).loc b)) = E3 m c b :=
  fun b hb => V4_of m (outsK m) c b (by
    intro h
    simp only [List.mem_cons, List.mem_nil_iff, or_false] at h
    rcases h with rfl
    exact hb (Finset.mem_image.mpr ⟨3, Finset.mem_univ _, rfl⟩))

/-! ## The proof data family and the thread states -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The dequantizer over the thread state: entered from every unscoped buffer at the contents after the first host
    stretch, left at the contents with its two output arrays replaced. Its arrays are split out of the unscoped
    buffers and put back; the generator register goes into the invariant and comes out; nothing is owed; the kernel
    has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product over the thread state: entered from the contents after the second host stretch, left at the
    contents with its output array replaced. Its invariant is entered from what the launch hands a region and gives
    the same back after the last point, the scratch's contents forgotten. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => V4 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- What rides along ends owing nothing. -/
theorem R_owes (c : Dev nD) : (R c : sProp 𝕄) ⊢ iprop(∃ W, owes (c : Thread nD τ) (0 : CellTallies nD τ sig Unit) W) := by
  iintro ⟨-, H⟩; iexact H

set_option backward.isDefEq.respectTransparency.types false in
/-- THE RUN. From any memory with zero counters every weakly fair execution of @main terminates, nothing faulting,
    and every final state holds every unscoped buffer of every core at the last valuation: the launch contents taken
    through the three host stretches and the two regions' write-backs. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V5 m (outsK m) c b) := by
  refine Pipeline.θ_run_regions_kit_dev (pcfgs (F := F)) adm (pdats m) () cellOf_inj emb₁ defs₀ 𝒱₀ L lv m ρ main
    (segs m (outsK m) 𝒱₀ L lv (fun _ c => R c) () (pdats m) (reg0 m) (reg1 m))
    (fun c Q => by
      rewrite [main_chain c, Seg.run_eq_chain,
        show (segs m (outsK m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m (outsK m) c))
    (hch := fun c => ⟨.rfl, .rfl, .rfl, .rfl, .rfl, sep_mono .rfl (R_owes c)⟩)
    (hinit := ?_)
    (QY := fun c s => ∀ b ∈ Pipeline.ucRefs τ sig, s.mem ((c : Thread nD τ).1, b) = V5 m (outsK m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outsK m) c) s') $$ [Hh HSI]
    · isplitl [Hh] <;> iassumption
    icases Hr with ⟨%h, HSI⟩
    imodintro
    isplitr
    · ipureintro; exact h
    · iexact HSI

/-! ## What is read off the run -/

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V5_main_arg0 m (outsK m) c),
     (h c _ (mem_uc main_arg1 (by decide))).trans (V5_main_arg1 m (outsK m) c),
     (h c _ (mem_uc main_arg2 (by decide))).trans (V5_main_arg2 m (outsK m) c),
     (h c _ (mem_uc main_arg3 (by decide))).trans (V5_main_arg3 m (outsK m) c)⟩) (run_all m ρ)

/-- THE RESULT beside the frame: the result buffer ends at the last valuation's contents. -/
theorem run_result : θ_run defs (onTc (τ := τ) (main (F := F))) ⟨m, fun _ => 0, ρ⟩ (fun r => ∀ c : Dev nD,
      r.2.mem ((c.tc : Thread nD τ).loc main_v11) = V5 m (outsK m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v11 (by decide)),
     (h c _ (mem_uc main_arg0 (by decide))).trans (V5_main_arg0 m (outsK m) c),
     (h c _ (mem_uc main_arg1 (by decide))).trans (V5_main_arg1 m (outsK m) c),
     (h c _ (mem_uc main_arg2 (by decide))).trans (V5_main_arg2 m (outsK m) c),
     (h c _ (mem_uc main_arg3 (by decide))).trans (V5_main_arg3 m (outsK m) c)⟩) (run_all m ρ)

end Cert.KernelIdeal.Hand

end
-- ==== Proof.KHost.lean ====
import proofs.«415060_j42649025249834_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-! # The host operations of the kernel's program, read at an index

Between its two kernel regions the program only rearranges arrays: it recasts the packed words and the scales as
matrices, interleaves the two halves of the decoded weights, flattens the activations' batch axes and, at the end,
splits them again. Each statement below says which entry of an earlier array an entry of a later array is. A recast
keeps the row-major position; a repetition along a new axis forgets that axis's coordinate; two arrays with a unit
last axis laid side by side along it put the first at last coordinate 0 and the second at last coordinate 1. -/

noncomputable section

namespace Cert.KernelIdeal.Hand

open Cert.KernelIdeal Cert.KernelIdeal.Gen Cert.KernelIdeal.Facts₀
open Idealize.ShloMosaic Idealize.ShloMosaic.TcCoe Idealize.ShloMosaic.ValueIdx

variable {F : FTy → Type} [FloatOps F]
variable (m : (ℓ : Loc nD τ sig) → Buf (Elt F) ℓ) (outs : Outs (F := F)) (c : Dev nD)

/-! ## The first host stretch: the packed words and the scales laid out as matrices -/

/-- The packed words as a `[4096, 2048]` matrix: the launch array recast row-major. -/
theorem V1_v0_whole : (V1 m c main_v0 : S4096x2048.Idx → Elt F .i32)
    = shapeCast S4096x2048 (m ((c : Thread nD τ).loc main_arg1) : S8388608.Idx → Elt F .i32)
        Gen.shapeCasts_S8388608_S4096x2048 := by
  dsimp only [V1, hostOps0]
  after_results
  rfl

/-- Word `q` of row `o` of the matrix of packed words is word `2048 o + q` of the launch array. -/
theorem V1_v0_apply (o : Fin 4096) (q : Fin 2048) :
    (V1 m c main_v0 : S4096x2048.Idx → Elt F .i32) (ix2 o q)
      = (m ((c : Thread nD τ).loc main_arg1) : S8388608.Idx → Elt F .i32)
          (ix1 ⟨o.val * 2048 + q.val, by omega⟩) := by
  rw [V1_v0_whole]
  exact shapeCast_apply (s := S8388608) (t := S4096x2048) _ _ _ _ (by
    rw [Shape.rowMajor_val_one, Shape.rowMajor_val_two]
    rfl)

/-- The scales as a `[4096, 2048]` matrix: the launch array recast to `[4096, 32]`, each entry repeated 64 times along a
    new last axis, the last two axes merged. -/
theorem V1_v3_whole : (V1 m c main_v3 : S4096x2048.Idx → Elt F .f32)
    = shapeCast S4096x2048
        (broadcastInDim S4096x32x64 ![0, 1] Gen.bcast_S4096x32_S4096x32x64_0_1
          (shapeCast S4096x32 (m ((c : Thread nD τ).loc main_arg2) : S131072.Idx → Elt F .f32)
            Gen.shapeCasts_S131072_S4096x32))
        Gen.shapeCasts_S4096x32x64_S4096x2048 := by
  dsimp only [V1, hostOps0]
  after_results
  rfl

/-- Entry `q` of row `o` of the matrix of scales is scale `32 o + q / 64` of the launch array: one scale serves 64
    consecutive words, that is 128 consecutive codes. -/
theorem V1_v3_apply (o : Fin 4096) (q : Fin 2048) :
    (V1 m c main_v3 : S4096x2048.Idx → Elt F .f32) (ix2 o q)
      = (m ((c : Thread nD τ).loc main_arg2) : S131072.Idx → Elt F .f32)
          (ix1 ⟨o.val * 32 + q.val / 64, by omega⟩) := by
  rw [V1_v3_whole]
  -- the merged axes split again: position q of a row is (q / 64, q % 64)
  refine (shapeCast_apply (s := S4096x32x64) (t := S4096x2048) _ _ (ix2 o q)
    (ix3 o (⟨q.val / 64, by omega⟩ : Fin 32) (⟨q.val % 64, by omega⟩ : Fin 64)) (by
      rw [Shape.rowMajor_val_three, Shape.rowMajor_val_two]
      show (o.val * 32 + q.val / 64) * 64 + q.val % 64 = o.val * 2048 + q.val
      omega)).trans ?_
  -- the repetition along the last axis forgets the last coordinate
  refine (broadcastInDim_apply (s := S4096x32) (t := S4096x32x64) _ _ _
    (ix3 o (⟨q.val / 64, by omega⟩ : Fin 32) (⟨q.val % 64, by omega⟩ : Fin 64))
    (ix2 o (⟨q.val / 64, by omega⟩ : Fin 32))
    (fun a => match a with | ⟨0, _⟩ => rfl | ⟨1, _⟩ => rfl)).trans ?_
  exact shapeCast_apply (s := S131072) (t := S4096x32) _ _ (ix2 o (⟨q.val / 64, by omega⟩ : Fin 32)) _ (by
    rw [Shape.rowMajor_val_one, Shape.rowMajor_val_two]
    rfl)

/-! ## The first region leaves both untouched -/

theorem V2_v0 : V2 m outs c main_v0 = V1 m c main_v0 := V2_of m outs c main_v0 (by decide)
theorem V2_v3 : V2 m outs c main_v3 = V1 m c main_v3 := V2_of m outs c main_v3 (by decide)

/-- After the first region its two results hold what the region left there. -/
theorem V2_v4_0 : V2 m outs c main_v4_0 = outs 2 main_v4_0 c :=
  (Function.update_of_ne (StableHlo.devRef_ne_of_ne (by decide : main_v4_0 ≠ main_v4_1)) _ _).trans
    (Function.update_self ..)
theorem V2_v4_1 : V2 m outs c main_v4_1 = outs 2 main_v4_1 c := Function.update_self ..

/-! ## The second host stretch: the two halves interleaved, the activations flattened -/

/-- The decoded weights as a `[4096, 4096]` matrix: each half given a unit last axis, the two laid side by side along
    it, the last two axes merged. -/
theorem V3_v8_whole : (V3 m outs c main_v8 : S4096x4096.Idx → Elt F .bf16)
    = shapeCast S4096x4096
        (concatenate S4096x2048x2 2
          [⟨S4096x2048x1, broadcastInDim S4096x2048x1 ![0, 1] Gen.bcast_S4096x2048_S4096x2048x1_0_1
              (V2 m outs c main_v4_0 : S4096x2048.Idx → Elt F .bf16)⟩,
           ⟨S4096x2048x1, broadcastInDim S4096x2048x1 ![0, 1] Gen.bcast_S4096x2048_S4096x2048x1_0_1
              (V2 m outs c main_v4_1 : S4096x2048.Idx → Elt F .bf16)⟩]
          Gen.concatenates_S4096x2048x1_S4096x2048x1_S4096x2048x2_d2)
        Gen.shapeCasts_S4096x2048x2_S4096x4096 := by
  dsimp only [V3, hostOps1]
  after_results
  rfl

/-- Column `k` of row `o` of the decoded weights: an even column `2 p` is entry `p` of the first half, an odd column
    `2 p + 1` entry `p` of the second half. -/
theorem V3_v8_apply (o k : Fin 4096) :
    (V3 m outs c main_v8 : S4096x4096.Idx → Elt F .bf16) (ix2 o k)
      = if k.val % 2 = 0
          then (outs 2 main_v4_0 c : S4096x2048.Idx → Elt F .bf16) (ix2 o ⟨k.val / 2, by omega⟩)
          else (outs 2 main_v4_1 c : S4096x2048.Idx → Elt F .bf16) (ix2 o ⟨k.val / 2, by omega⟩) := by
  rw [V3_v8_whole, V2_v4_0, V2_v4_1]
  -- the merged axes split again: column k is (k / 2, k % 2)
  refine (shapeCast_apply (s := S4096x2048x2) (t := S4096x4096) _ _ (ix2 o k)
    (ix3 o (⟨k.val / 2, by omega⟩ : Fin 2048) (⟨k.val % 2, by omega⟩ : Fin 2)) (by
      rw [Shape.rowMajor_val_three, Shape.rowMajor_val_two]
      show (o.val * 2048 + k.val / 2) * 2 + k.val % 2 = o.val * 4096 + k.val
      omega)).trans ?_
  by_cases hk : k.val % 2 = 0
  · rw [if_pos hk]
    -- last coordinate 0: the first piece
    refine (concatenate_pair_apply_left (t := S4096x2048x2) (s₁ := S4096x2048x1) (s₂ := S4096x2048x1)
      (2 : Fin S4096x2048x2.rank) _ _ _
      (ix3 o (⟨k.val / 2, by omega⟩ : Fin 2048) (⟨k.val % 2, by omega⟩ : Fin 2)) rfl
      (ix3 o (⟨k.val / 2, by omega⟩ : Fin 2048) (0 : Fin 1))
      (fun b => match b with | ⟨0, _⟩ => rfl | ⟨1, _⟩ => rfl | ⟨2, _⟩ => hk.symm)).trans ?_
    exact broadcastInDim_apply (s := S4096x2048) (t := S4096x2048x1) _ _ _
      (ix3 o (⟨k.val / 2, by omega⟩ : Fin 2048) (0 : Fin 1))
      (ix2 o (⟨k.val / 2, by omega⟩ : Fin 2048))
      (fun a => match a with | ⟨0, _⟩ => rfl | ⟨1, _⟩ => rfl)
  · rw [if_neg hk]
    -- last coordinate 1: the second piece, at 1 - 1 = 0
    refine (concatenate_pair_apply_right (t := S4096x2048x2) (s₁ := S4096x2048x1) (s₂ := S4096x2048x1)
      (2 : Fin S4096x2048x2.rank) _ _ _
      (ix3 o (⟨k.val / 2, by omega⟩ : Fin 2048) (⟨k.val % 2, by omega⟩ : Fin 2)) rfl rfl
      (ix3 o (⟨k.val / 2, by omega⟩ : Fin 2048) (0 : Fin 1))
      (fun b => match b with
        | ⟨0, _⟩ => fun _ => rfl
        | ⟨1, _⟩ => fun _ => rfl
        | ⟨2, _⟩ => fun h => absurd (Fin.ext rfl) h)
      (by show 0 + 1 = k.val % 2; omega)).trans ?_
    exact broadcastInDim_apply (s := S4096x2048) (t := S4096x2048x1) _ _ _
      (ix3 o (⟨k.val / 2, by omega⟩ : Fin 2048) (0 : Fin 1))
      (ix2 o (⟨k.val / 2, by omega⟩ : Fin 2048))
      (fun a => match a with | ⟨0, _⟩ => rfl | ⟨1, _⟩ => rfl)

/-- The activations as an `[8192, 4096]` matrix: the launch array's two leading axes merged. -/
theorem V3_v9_whole : (V3 m outs c main_v9 : S8192x4096.Idx → Elt F .f32)
    = shapeCast S8192x4096 (m ((c : Thread nD τ).loc main_arg0) : S4x2048x4096.Idx → Elt F .f32)
        Gen.shapeCasts_S4x2048x4096_S8192x4096 := by
  have e : (V3 m outs c main_v9 : S8192x4096.Idx → Elt F .f32)
      = shapeCast S8192x4096 (V2 m outs c main_arg0 : S4x2048x4096.Idx → Elt F .f32)
          Gen.shapeCasts_S4x2048x4096_S8192x4096 := by
    dsimp only [V3, hostOps1]
    after_results
    rfl
  rw [e, V2_of m outs c main_arg0 (by decide), V1_of m c main_arg0 (by decide)]

/-- Row `r` of the flattened activations is row `r % 2048` of batch `r / 2048`. -/
theorem V3_v9_apply (r : Fin 8192) (k : Fin 4096) :
    (V3 m outs c main_v9 : S8192x4096.Idx → Elt F .f32) (ix2 r k)
      = (m ((c : Thread nD τ).loc main_arg0) : S4x2048x4096.Idx → Elt F .f32)
          (ix3 ⟨r.val / 2048, by omega⟩ ⟨r.val % 2048, by omega⟩ k) := by
  rw [V3_v9_whole]
  exact shapeCast_apply (s := S4x2048x4096) (t := S8192x4096) _ _ _ _ (by
    rw [Shape.rowMajor_val_three, Shape.rowMajor_val_two]
    show (r.val / 2048 * 2048 + r.val % 2048) * 4096 + k.val = r.val * 4096 + k.val
    omega)

/-- The bias is still the launch array when the second region starts. -/
theorem V3_arg3 : V3 m outs c main_arg3 = m ((c : Thread nD τ).loc main_arg3) :=
  (V3_of m outs c main_arg3 (by decide)).trans <| (V2_of m outs c main_arg3 (by decide)).trans <|
    (V1_of m c main_arg3 (by decide)).trans rfl

/-! ## The last host stretch: the product given its batch axis back -/

/-- After the second region its result holds what the region left there. -/
theorem V4_v10 : V4 m outs c main_v10 = outs 4 main_v10 c := Function.update_self ..

/-- The result as a `[4, 2048, 4096]` array: the second region's matrix with its row axis split. -/
theorem V5_v11_whole : (V5 m outs c main_v11 : S4x2048x4096.Idx → Elt F .f32)
    = shapeCast S4x2048x4096 (outs 4 main_v10 c : S8192x4096.Idx → Elt F .f32)
        Gen.shapeCasts_S8192x4096_S4x2048x4096 := by
  have e : (V5 m outs c main_v11 : S4x2048x4096.Idx → Elt F .f32)
      = shapeCast S4x2048x4096 (V4 m outs c main_v10 : S8192x4096.Idx → Elt F .f32)
          Gen.shapeCasts_S8192x4096_S4x2048x4096 := by
    dsimp only [V5, hostOps2]
    after_results
    rfl
  rw [e, V4_v10]

/-- Entry `(b, t, o)` of the result is entry `o` of row `2048 b + t` of the second region's matrix. -/
theorem V5_v11_apply (b : Fin 4) (t : Fin 2048) (o : Fin 4096) :
    (V5 m outs c main_v11 : S4x2048x4096.Idx → Elt F .f32) (ix3 b t o)
      = (outs 4 main_v10 c : S8192x4096.Idx → Elt F .f32) (ix2 ⟨b.val * 2048 + t.val, by omega⟩ o) := by
  rw [V5_v11_whole]
  exact shapeCast_apply (s := S8192x4096) (t := S4x2048x4096) _ _ _ _ (by
    rw [Shape.rowMajor_val_two, Shape.rowMajor_val_three]
    rfl)

end Cert.KernelIdeal.Hand

end
-- ==== Proof.Spec.lean ====
/-
  The mathematics both programs compute, stated once over the extended reals, with no program in sight.

  A packed word carries two 4-bit codes, the high one in bits 7..4 and the low one in bits 3..0. A code's bit 3 is
  the sign, its bits 2..0 select a magnitude from 0, 1/2, 1, 3/2, 2, 3, 4, 6 (the e2m1 format). The stream of
  codes is the packed words in order, each word's high code before its low code; code number j is scaled by
  entry j / 128 of the scale array, and the 4096 x 4096 weight matrix is that scaled stream row by row. The result
  is x contracted with the weight matrix over the last axis, plus the bias.

  Two scalar chains compute a code's value from its word: the one that does arithmetic on the code's bits
  (`kdec`) and the one that looks the magnitude up in a table of eight literals (`rdec`). They are written here over
  the library's word and float operations so that each program's elementwise operations, read at an index, are one of
  them by unfolding; that they agree with `fp4` on every 4-bit word is a finite check done elsewhere.
-/
import Idealize.ShloMosaic.PureOps.Ideal
import Idealize.ShloMosaic.Lib.ValueIdx

noncomputable section

open scoped BigOperators

namespace Cert.Fp4

open Idealize.ShloMosaic Idealize.ShloMosaic.ValueIdx

/-- The high 4-bit code of a packed word: bits 7..4 (an arithmetic shift, then the mask). -/
def hiNib (w : BitVec 32) : BitVec 32 := IntOp.andi (IntOp.shrsi .vector w 4#32) 15#32
/-- The low 4-bit code of a packed word: bits 3..0. -/
def loNib (w : BitVec 32) : BitVec 32 := IntOp.andi w 15#32

/-- The sixteen values a 4-bit code denotes: codes 0..7 the magnitudes, codes 8..15 their negatives. -/
def val16 : Fin 16 → ℝ := ![0, 1/2, 1, 3/2, 2, 3, 4, 6, -0, -(1/2), -1, -(3/2), -2, -3, -4, -6]

/-- The value of a 4-bit code word, as an extended real. -/
def fp4 (n : BitVec 32) : EReal := ((val16 ⟨n.toNat % 16, Nat.mod_lt _ (by decide)⟩ : ℝ) : EReal)

/-- A code's value by arithmetic on its bits: the magnitude code `c` (bits 2..0) below 2 denotes `c / 2`, from 2 on
    it denotes `2 ^ (c / 2 - 1) * (1 + (c mod 2) / 2)`; bit 3 set negates, as a subtraction from zero. -/
def kdec (n : BitVec 32) : Ideal .f32 :=
  let idx : BitVec 32 := IntOp.andi n 7#32
  let sgn : BitVec 32 := IntOp.andi (IntOp.shrsi .vector n 3#32) 1#32
  let e : BitVec 32 := IntOp.subi (IntOp.shrsi .vector idx 1#32) 1#32
  let pow2 : Ideal .f32 := Scalar.select (IntOp.cmpi .eq e 0#32) (Scalar.ofBits .f32 0x3F800000#32)
    (Scalar.select (IntOp.cmpi .eq e 1#32) (Scalar.ofBits .f32 0x40000000#32) (Scalar.ofBits .f32 0x40800000#32))
  let mant : Ideal .f32 := FloatOps.mulf (Scalar.ofBits .f32 0x3F000000#32) (FloatOps.sitofp .f32 (IntOp.andi idx 1#32))
  let big : Ideal .f32 := FloatOps.mulf pow2 (FloatOps.addf (Scalar.ofBits .f32 0x3F800000#32) mant)
  let small : Ideal .f32 := FloatOps.mulf (FloatOps.sitofp .f32 idx) (Scalar.ofBits .f32 0x3F000000#32)
  let mag : Ideal .f32 := Scalar.select (IntOp.cmpi .slt idx 2#32) small big
  Scalar.select (IntOp.cmpi .eq sgn 1#32) (FloatOps.subf (Scalar.ofBits .f32 0x00000000#32) mag) mag

/-- The table of the eight magnitudes as float words: 0, 1/2, 1, 3/2, 2, 3, 4, 6. -/
def lut : Fin 8 → BitVec 32 := fun
  | 0 => 0x00000000#32 | 1 => 0x3F000000#32 | 2 => 0x3F800000#32 | 3 => 0x3FC00000#32 | 4 => 0x40000000#32 | 5 => 0x40400000#32 | 6 => 0x40800000#32 | 7 => 0x40C00000#32

/-- A code's value by table lookup: entry (bits 2..0) of the magnitude table, negated when bit 3 is set. -/
def rdec (n : BitVec 32) : EReal :=
  let v : EReal := Ideal.ofBits .f32 (lut ⟨n.toNat % 8, Nat.mod_lt _ (by decide)⟩)
  if n.toNat / 8 % 2 = 1 then -v else v

/-- Code number `j` of the stream: word `j / 2`, its high code when `j` is even and its low code when `j` is odd. -/
def code (p : IVec (⟨1, ![8388608]⟩ : Shape) 32) (j : Fin 16777216) : BitVec 32 :=
  if j.val % 2 = 0 then hiNib (p (ix1 ⟨j.val / 2, by omega⟩)) else loNib (p (ix1 ⟨j.val / 2, by omega⟩))

/-- Entry (o, k) of the dequantized weight matrix: code number `4096 o + k`, scaled by its block of 128's scale. -/
def weight (p : IVec (⟨1, ![8388608]⟩ : Shape) 32) (s : FVec Ideal (⟨1, ![131072]⟩ : Shape) .f32) (o k : Fin 4096) : EReal :=
  fp4 (code p ⟨o.val * 4096 + k.val, by omega⟩) * s (ix1 ⟨(o.val * 4096 + k.val) / 128, by omega⟩)

/-- The result at (b, t, o): row (b, t) of x against row o of the weight matrix, plus the bias at o. -/
def out (x : FVec Ideal (⟨3, ![4, 2048, 4096]⟩ : Shape) .f32) (p : IVec (⟨1, ![8388608]⟩ : Shape) 32)
    (s : FVec Ideal (⟨1, ![131072]⟩ : Shape) .f32) (bias : FVec Ideal (⟨1, ![4096]⟩ : Shape) .f32)
    (b : Fin 4) (t : Fin 2048) (o : Fin 4096) : EReal :=
  (∑ k : Fin 4096, x (ix3 b t k) * weight p s o k) + bias (ix1 o)

/-- The whole result array. -/
def result (x : FVec Ideal (⟨3, ![4, 2048, 4096]⟩ : Shape) .f32) (p : IVec (⟨1, ![8388608]⟩ : Shape) 32)
    (s : FVec Ideal (⟨1, ![131072]⟩ : Shape) .f32) (bias : FVec Ideal (⟨1, ![4096]⟩ : Shape) .f32) :
    FVec Ideal (⟨3, ![4, 2048, 4096]⟩ : Shape) .f32 :=
  fun i => out x p s bias (i 0) (i 1) (i 2)

end Cert.Fp4

end
-- ==== Proof.KVal0.lean ====
/-
  The dequantizer's two outputs as whole arrays. Each stored value, read at one index of a block, is the arithmetic
  decoding of that index's 4-bit code (high or low) times that index's scale; every grid point writes its 256 rows
  back, the sixteen row bands tile the 4096 rows, so each output array ends as that product at every index.
-/
import proofs.«415060_j42649025249834_3_alg».proof.Proof.Region0
import proofs.«415060_j42649025249834_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The stored values at one index -/

/-- The high code's stored value at an index: every operation of the chain is pointwise, the two shape casts are to the
    same shape, and the narrowing to bf16 is the identity on extended reals. -/
theorem hiPay_apply (x0 : Vec Ideal S256x2048 .i32) (x1 : Vec Ideal S256x2048 .f32) (j : S256x2048.Idx) :
    hiPay (F := Ideal) x0 x1 j = Cert.Fp4.kdec (Cert.Fp4.hiNib (x0 j)) * x1 j := by
  unfold hiPay k0_pay13 k0_pay12 k0_pay11 k0_pay10 k0_pay9 k0_pay8 k0_pay7 k0_pay6 k0_pay4 k0_pay3 k0_pay2
  simp only [shapeCast_self]
  rfl

/-- The low code's stored value at an index, the same chain on the word's low four bits. -/
theorem loPay_apply (x0 : Vec Ideal S256x2048 .i32) (x1 : Vec Ideal S256x2048 .f32) (j : S256x2048.Idx) :
    loPay (F := Ideal) x0 x1 j = Cert.Fp4.kdec (Cert.Fp4.loNib (x0 j)) * x1 j := by
  unfold loPay k0_pay1 k0_pay19 k0_pay18 k0_pay17 k0_pay16 k0_pay15 k0_pay14 k0_pay5 k0_pay3 k0_pay2
  simp only [shapeCast_self]
  rfl

/-! ## From the blocks to the arrays -/

variable (V : (c : Dev nD) → (b : Ref sig .tc) → Buf (Elt Ideal) ((c : Thread nD τ).loc b)) (c : Dev nD)

/-- The zero offsets of the whole-block rectangle, as a constant function. -/
theorem hz0 : (![0, 0] : Fin 2 → Nat) = fun _ => 0 := funext fun a => by fin_cases a <;> rfl

/-- The decoded high codes times the scales over a whole array. -/
abbrev GHi (a0 : S4096x2048.Idx → BitVec 32) (a1 : S4096x2048.Idx → EReal) : S4096x2048.Idx → EReal :=
  fun i => Cert.Fp4.kdec (Cert.Fp4.hiNib (a0 i)) * a1 i

/-- The decoded low codes times the scales over a whole array. -/
abbrev GLo (a0 : S4096x2048.Idx → BitVec 32) (a1 : S4096x2048.Idx → EReal) : S4096x2048.Idx → EReal :=
  fun i => Cert.Fp4.kdec (Cert.Fp4.loNib (a0 i)) * a1 i

/-- The four index maps over the grid: at point t every window's block index is (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back to the high codes' array is its block of the whole-array product: each input block is read
    where the output's block sits, row 256 t + y 0 and column y 1. -/
theorem flushed0_2_eq (t : Fin cfg0.N) :
    (dat0 (F := Ideal) V c).flushed 2 t = ((cfg0.win 2).blk t).view.read (Elt Ideal) (GHi (V c main_v0) (V c main_v3)) := by
  show (cfg0.win 2).cut (grid0.coords t) ((dat0 (F := Ideal) V c).after 2 t) = _
  rw [after0_2]
  unfold out0_2
  rw [View.canon_unit_zero hz0]
  simp only [View.ld_unit_zero (S := S256x2048) hz0]
  obtain ⟨e00, e01, e10, e11, e20, e21, e30, e31⟩ := idx_facts0 t
  funext j
  show hiPay (F := Ideal) (iblk0 V c 0 t) (iblk0 V c 1 t) j = GHi (V c main_v0) (V c main_v3) (((cfg0.win 2).blk t).view.emb j)
  rw [hiPay_apply]
  show Cert.Fp4.kdec (Cert.Fp4.hiNib (V c main_v0 (((cfg0.win 0).blk t).view.emb j))) * V c main_v3 (((cfg0.win 1).blk t).view.emb j)
    = Cert.Fp4.kdec (Cert.Fp4.hiNib (V c main_v0 (((cfg0.win 2).blk t).view.emb j))) * V c main_v3 (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 2048 + 1 * (j 1).val = win0_2.index t (1 : Fin 2) * 2048 + 1 * (j 1).val; omega
  rw [h0, h1]

/-- What point t writes back to the low codes' array is its block of the whole-array product. -/
theorem flushed0_3_eq (t : Fin cfg0.N) :
    (dat0 (F := Ideal) V c).flushed 3 t = ((cfg0.win 3).blk t).view.read (Elt Ideal) (GLo (V c main_v0) (V c main_v3)) := by
  show (cfg0.win 3).cut (grid0.coords t) ((dat0 (F := Ideal) V c).after 3 t) = _
  rw [after0_3]
  unfold out0_3
  rw [View.canon_unit_zero hz0]
  simp only [View.ld_unit_zero (S := S256x2048) hz0]
  obtain ⟨e00, e01, e10, e11, e20, e21, e30, e31⟩ := idx_facts0 t
  funext j
  show loPay (F := Ideal) (iblk0 V c 0 t) (iblk0 V c 1 t) j = GLo (V c main_v0) (V c main_v3) (((cfg0.win 3).blk t).view.emb j)
  rw [loPay_apply]
  show Cert.Fp4.kdec (Cert.Fp4.loNib (V c main_v0 (((cfg0.win 0).blk t).view.emb j))) * V c main_v3 (((cfg0.win 1).blk t).view.emb j)
    = Cert.Fp4.kdec (Cert.Fp4.loNib (V c main_v0 (((cfg0.win 3).blk t).view.emb j))) * V c main_v3 (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * (j 1).val = win0_3.index t (1 : Fin 2) * 2048 + 1 * (j 1).val; omega
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 2048 + 1 * (j 1).val = win0_3.index t (1 : Fin 2) * 2048 + 1 * (j 1).val; omega
  rw [h0, h1]

/-- An index of the high codes' array is in point t's block iff each coordinate is in the block's range on its axis. -/
theorem mem_blk0_2 (t : Fin cfg0.N) (i : S4096x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v4_0).slice (win0_2.rect t)).set ↔ _
  rw [View.set_slice_whole, Rect.mem_set_unit]
  exact Iff.rfl

/-- The same for the low codes' array. -/
theorem mem_blk0_3 (t : Fin cfg0.N) (i : S4096x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v4_1).slice (win0_3.rect t)).set ↔ _
  rw [View.set_slice_whole, Rect.mem_set_unit]
  exact Iff.rfl

/-- Row r of the high codes' array lies in the band of point r / 256, which writes back. -/
theorem covered0_2 (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 16 := N_0
  refine ⟨⟨(i 0).val / 256, by rw [hN]; omega⟩, flush0_2 _, ?_⟩
  obtain ⟨e00, e01, e10, e11, e20, e21, e30, e31⟩ := idx_facts0 ⟨(i 0).val / 256, by rw [hN]; omega⟩
  rw [mem_blk0_2]
  intro a
  match a with
  | ⟨0, _⟩ =>
    show win0_2.index _ (0 : Fin 2) * 256 ≤ (i 0).val ∧ (i 0).val < win0_2.index _ (0 : Fin 2) * 256 + 256
    rw [e20]; show (i 0).val / 256 * 256 ≤ (i 0).val ∧ (i 0).val < (i 0).val / 256 * 256 + 256; omega
  | ⟨1, _⟩ =>
    show win0_2.index _ (1 : Fin 2) * 2048 ≤ (i 1).val ∧ (i 1).val < win0_2.index _ (1 : Fin 2) * 2048 + 2048
    rw [e21]; omega

/-- The same for the low codes' array. -/
theorem covered0_3 (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 16 := N_0
  refine ⟨⟨(i 0).val / 256, by rw [hN]; omega⟩, flush0_3 _, ?_⟩
  obtain ⟨e00, e01, e10, e11, e20, e21, e30, e31⟩ := idx_facts0 ⟨(i 0).val / 256, by rw [hN]; omega⟩
  rw [mem_blk0_3]
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 2048 ≤ (i 1).val ∧ (i 1).val < win0_3.index _ (1 : Fin 2) * 2048 + 2048
    rw [e31]; omega

/-- The high codes' array after the region: the arithmetic decoding of each word's high code times its scale. -/
theorem arr0_hi : (dat0 (F := Ideal) V c).arrAt 2 cfg0.N
    = fun i => Cert.Fp4.kdec (Cert.Fp4.hiNib (V c main_v0 i)) * V c main_v3 i :=
  (dat0 (F := Ideal) V c).arrAt_eq_of_cover 2 (GHi (V c main_v0) (V c main_v3))
    (fun t _ => flushed0_2_eq V c t) covered0_2

/-- The low codes' array after the region: the arithmetic decoding of each word's low code times its scale. -/
theorem arr0_lo : (dat0 (F := Ideal) V c).arrAt 3 cfg0.N
    = fun i => Cert.Fp4.kdec (Cert.Fp4.loNib (V c main_v0 i)) * V c main_v3 i :=
  (dat0 (F := Ideal) V c).arrAt_eq_of_cover 3 (GLo (V c main_v0) (V c main_v3))
    (fun t _ => flushed0_3_eq V c t) covered0_3

end Cert.KernelIdeal.Hand

end
-- ==== Proof.KVal1.lean ====
/-
  The matrix product's region, read as values over the extended reals.

  Three things are proved. (1) What a point's body leaves, entry by entry: the stored conversion of the input block to the
  narrower format is the identity, and the stored output block at (r, o) is the sum over k of scratch (r, k) times
  weight block (o, k), plus the bias block at o — the contraction read through its dimension numbers (both operands
  contract their second axis), the bias reshaped to one row and repeated along the rows. (2) The carried scratch in
  closed form: after position n it holds rows 512 (n / 8) .. of the input array, since it is stored only at the multiples
  of 8 and from that point's input block. (3) From blocks to the array: what point t = 8 i + j writes back is the block
  at rows 512 i .. and columns 512 j .. of ONE function of the three arrays the region reads; the 128 blocks cover the
  8192 x 4096 result (entry (r, o) lies in the block of point 8 (r / 512) + o / 512), so the result array after the
  region is that function: entry (r, o) = sum over k of input (r, k) * weight (o, k), plus bias (o).
-/
import proofs.«415060_j42649025249834_3_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

theorem lhs_dot_0 (j : S512x512.Idx) (k : dot_S512x4096_S512x4096_S512x512_1_1_0_0_n_n.contr.Idx) :
    ((dot_S512x4096_S512x4096_S512x512_1_1_0_0_n_n.lhsIdx j k) 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

theorem lhs_dot_1 (j : S512x512.Idx) (k : dot_S512x4096_S512x4096_S512x512_1_1_0_0_n_n.contr.Idx) :
    ((dot_S512x4096_S512x4096_S512x512_1_1_0_0_n_n.lhsIdx j k) 1).val = (k ⟨0, by decide⟩).val :=
  DotDims.lhsIdx_val_of_single dot_S512x4096_S512x4096_S512x512_1_1_0_0_n_n (cl := 1) rfl j k

theorem rhs_dot_0 (j : S512x512.Idx) (k : dot_S512x4096_S512x4096_S512x512_1_1_0_0_n_n.contr.Idx) :
    ((dot_S512x4096_S512x4096_S512x512_1_1_0_0_n_n.rhsIdx j k) 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

theorem rhs_dot_1 (j : S512x512.Idx) (k : dot_S512x4096_S512x4096_S512x512_1_1_0_0_n_n.contr.Idx) :
    ((dot_S512x4096_S512x4096_S512x512_1_1_0_0_n_n.rhsIdx j k) 1).val = (k ⟨0, by decide⟩).val :=
  DotDims.rhsIdx_val_of_single dot_S512x4096_S512x4096_S512x512_1_1_0_0_n_n (cr := 1) rfl j k

theorem matmul_at (a b : FVec Ideal S512x4096 .bf16) (r o : Fin 512) :
    matmul dot_S512x4096_S512x4096_S512x512_1_1_0_0_n_n none a b (constant (F := Ideal) S512x512 .f32 0x00000000#32) (ix2 r o)
      = ∑ k : Fin 4096, a (ix2 r k) * b (ix2 o k) := by
  refine (Ideal.matmul_constant_zero_apply dot_S512x4096_S512x4096_S512x512_1_1_0_0_n_n none a b (ix2 r o)).trans ?_
  rw [← Equiv.sum_comp (contrEquiv1 dot_S512x4096_S512x4096_S512x512_1_1_0_0_n_n 4096 rfl rfl).symm]
  refine Finset.sum_congr rfl fun k _ => ?_
  have hl : dot_S512x4096_S512x4096_S512x512_1_1_0_0_n_n.lhsIdx (ix2 r o) ((contrEquiv1 dot_S512x4096_S512x4096_S512x512_1_1_0_0_n_n 4096 rfl rfl).symm k) = ix2 r k := by
    funext x; apply Fin.ext
    match x with
    | ⟨0, _⟩ => exact lhs_dot_0 _ _
    | ⟨1, _⟩ => exact (lhs_dot_1 _ _).trans (contrEquiv1_symm_val _ 4096 rfl rfl k)
  have hr : dot_S512x4096_S512x4096_S512x512_1_1_0_0_n_n.rhsIdx (ix2 r o) ((contrEquiv1 dot_S512x4096_S512x4096_S512x512_1_1_0_0_n_n 4096 rfl rfl).symm k) = ix2 o k := by
    funext x; apply Fin.ext
    match x with
    | ⟨0, _⟩ => exact rhs_dot_0 _ _
    | ⟨1, _⟩ => exact (rhs_dot_1 _ _).trans (contrEquiv1_symm_val _ 4096 rfl rfl k)
  rw [hl, hr]

theorem scOut_apply (x0 : Vec Ideal S512x4096 .f32) (j : S512x4096.Idx) : scOut (F := Ideal) x0 j = x0 j := by
  unfold scOut
  rw [View.canon_unit_zero zero2]
  simp only [View.ld_unit_zero (S := S512x4096) zero2]
  unfold k1_pay1
  simp only [shapeCast_self]
  rfl

theorem bias_at (x2 : FVec Ideal S512 .f32) (r o : Fin 512) :
    broadcastTo S512x512 (shapeCast S1x512 x2 shapeCasts_S512_S1x512) broadcasts_S1x512_S512x512 (ix2 r o) = x2 (ix1 o) := by
  refine (broadcastTo_apply _ _ (ix2 r o) (ix2 (0 : Fin 1) o) ?_).trans ?_
  · intro a
    match a with
    | ⟨0, _⟩ => rfl
    | ⟨1, _⟩ => rfl
  · refine (shapeCast_addUnit_apply ![512] x2 _ _).trans ?_
    exact congrArg x2 (funext fun a => by
      match a with
      | ⟨0, _⟩ => rfl)

theorem out1_3_apply (sc x1 : Vec Ideal S512x4096 .bf16) (x2 : Vec Ideal S512 .f32) (r o : Fin 512) :
    out1_3 (F := Ideal) sc x1 x2 (ix2 r o) = (∑ k : Fin 4096, sc (ix2 r k) * x1 (ix2 o k)) + x2 (ix1 o) := by
  unfold out1_3
  rw [View.canon_unit_zero zero2]
  simp only [View.ld_unit_zero (S := S512x4096) zero2, View.ld_unit_zero (S := S512) zero1]
  unfold k1_pay2
  simp only [shapeCast_self]
  refine (congrArg₂ (· + ·) (matmul_at sc x1 r o) (bias_at x2 r o))

variable (V : (c : Dev nD) → (b : Ref sig .tc) → Buf (Elt Ideal) ((c : Thread nD τ).loc b)) (c : Dev nD)

/-- The four windows' block indices at grid point t = 8 i + j: the input rows' block is (i, 0), the weight rows'
    (j, 0), the bias' (j), the output's (i, j). Decided over the 128 points. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val % 8
    ∧ win1_3.index t (0 : Fin 2) = t.val / 8 ∧ win1_3.index t (1 : Fin 2) = t.val % 8 :=
  (by decide +kernel : ∀ t : Fin grid1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val % 8
    ∧ win1_3.index t (0 : Fin 2) = t.val / 8 ∧ win1_3.index t (1 : Fin 2) = t.val % 8)

/-- Entry (r, k) of the input rows' block at point t is entry (512 (t / 8) + r, k) of the input array. -/
theorem iblk1_0_apply (t : Fin cfg1.N) (r : Fin 512) (k : Fin 4096) (i : S8192x4096.Idx)
    (h0 : (i 0).val = 512 * (t.val / 8) + r.val) (h1 : (i 1).val = k.val) :
    (iblk1 V c 0 t : Vec Ideal S512x4096 .f32) (ix2 r k) = (V c main_v9 : S8192x4096.Idx → EReal) i := by
  obtain ⟨e0, e1, -⟩ := idx1 t
  unfold iblk1
  rw [View.read_apply]
  show V c main_v9 _ = V c main_v9 _
  congr 1
  funext a
  apply Fin.ext
  match a with
  | ⟨0, _⟩ => show win1_0.index t 0 * 512 + 1 * r.val = (i 0).val; rw [e0, h0]; omega
  | ⟨1, _⟩ => show win1_0.index t 1 * 4096 + 1 * k.val = (i 1).val; rw [e1, h1]; omega

/-- Entry (o, k) of the weight rows' block at point t is entry (512 (t mod 8) + o, k) of the weight array. -/
theorem iblk1_1_apply (t : Fin cfg1.N) (o : Fin 512) (k : Fin 4096) (i : S4096x4096.Idx)
    (h0 : (i 0).val = 512 * (t.val % 8) + o.val) (h1 : (i 1).val = k.val) :
    (iblk1 V c 1 t : Vec Ideal S512x4096 .bf16) (ix2 o k) = (V c main_v8 : S4096x4096.Idx → EReal) i := by
  obtain ⟨-, -, e2, e3, -⟩ := idx1 t
  unfold iblk1
  rw [View.read_apply]
  show V c main_v8 _ = V c main_v8 _
  congr 1
  funext a
  apply Fin.ext
  match a with
  | ⟨0, _⟩ => show win1_1.index t 0 * 512 + 1 * o.val = (i 0).val; rw [e2, h0]; omega
  | ⟨1, _⟩ => show win1_1.index t 1 * 4096 + 1 * k.val = (i 1).val; rw [e3, h1]; omega

/-- Entry o of the bias block at point t is entry 512 (t mod 8) + o of the bias. -/
theorem iblk1_2_apply (t : Fin cfg1.N) (o : Fin 512) (i : S4096.Idx)
    (h0 : (i 0).val = 512 * (t.val % 8) + o.val) :
    (iblk1 V c 2 t : Vec Ideal S512 .f32) (ix1 o) = (V c main_arg3 : S4096.Idx → EReal) i := by
  obtain ⟨-, -, -, -, e4, -⟩ := idx1 t
  unfold iblk1
  rw [View.read_apply]
  show V c main_arg3 _ = V c main_arg3 _
  congr 1
  funext a
  apply Fin.ext
  match a with
  | ⟨0, _⟩ => show win1_2.index t 0 * 512 + 1 * o.val = (i 0).val; rw [e4, h0]; omega

/-- The carried scratch in closed form: after position n it holds rows 512 (n / 8) .. of the input array, because it
    was last stored at the multiple of 8 below n, from that point's input block. -/
theorem scAt_apply (n : ℕ) (hn : n < cfg1.N) (r : Fin 512) (k : Fin 4096) (i : S8192x4096.Idx)
    (h0 : (i 0).val = 512 * (n / 8) + r.val) (h1 : (i 1).val = k.val) :
    scAt (F := Ideal) V c n hn (ix2 r k) = (V c main_v9 : S8192x4096.Idx → EReal) i := by
  induction n with
  | zero =>
    exact (congrFun (scAt_first V c ⟨0, hn⟩ rfl) _).trans ((scOut_apply _ _).trans (iblk1_0_apply V c ⟨0, hn⟩ r k i h0 h1))
  | succ n ih =>
    by_cases h : (n + 1) % 8 = 0
    · exact (congrFun (scAt_first V c ⟨n + 1, hn⟩ h) _).trans ((scOut_apply _ _).trans (iblk1_0_apply V c ⟨n + 1, hn⟩ r k i h0 h1))
    · refine (congrFun (scAt_rest V c ⟨n + 1, hn⟩ h) _).trans ?_
      exact ih (Nat.lt_of_succ_lt hn) (by omega)

/-- The three arrays the region reads, as functions of literal index types into the extended reals: the input rows, -/
abbrev xarr (V : (c : Dev nD) → (b : Ref sig .tc) → Buf (Elt Ideal) ((c : Thread nD τ).loc b)) (c : Dev nD) : S8192x4096.Idx → EReal := V c main_v9
/-- the weight rows, -/
abbrev warr (V : (c : Dev nD) → (b : Ref sig .tc) → Buf (Elt Ideal) ((c : Thread nD τ).loc b)) (c : Dev nD) : S4096x4096.Idx → EReal := V c main_v8
/-- and the bias. -/
abbrev barr (V : (c : Dev nD) → (b : Ref sig .tc) → Buf (Elt Ideal) ((c : Thread nD τ).loc b)) (c : Dev nD) : S4096.Idx → EReal := V c main_arg3

/-- The result array as one function of the three arrays the region reads: row r of the input against row o of the
    weight matrix, plus the bias at o. -/
def G1 (A : S8192x4096.Idx → EReal) (B : S4096x4096.Idx → EReal) (C : S4096.Idx → EReal) : S8192x4096.Idx → EReal :=
  fun i => (∑ k : Fin 4096, A (ix2 (i 0) k) * B (ix2 (i 1) k)) + C (ix1 (i 1))

/-- What point t writes back is block t of that function: the scratch holds the input rows 512 (t / 8) .., the
    weight block the rows 512 (t mod 8) .., the bias block the entries 512 (t mod 8) .., and the output block sits at
    rows 512 (t / 8) .. and columns 512 (t mod 8) .. of the result. -/
theorem flushed1_eq (t : Fin cfg1.N) :
    (dat1 (F := Ideal) V c).flushed 3 t
      = ((cfg1.win 3).blk t).view.read (Elt Ideal) (G1 (V c main_v9) (V c main_v8) (V c main_arg3)) := by
  obtain ⟨-, -, -, -, -, e5, e6⟩ := idx1 t
  show (cfg1.win 3).cut (grid1.coords t) ((dat1 V c).after 3 t) = _
  rw [after1_3]
  funext j
  obtain ⟨r, o, rfl⟩ : ∃ (r o : Fin 512), j = ix2 r o := ⟨j 0, j 1, eq_ix2 j⟩
  have hr : ((((cfg1.win 3).blk t).view.emb (ix2 r o)) 0).val = 512 * (t.val / 8) + r.val := by
    show win1_3.index t 0 * 512 + 1 * r.val = _; rw [e5]; omega
  have ho : ((((cfg1.win 3).blk t).view.emb (ix2 r o)) 1).val = 512 * (t.val % 8) + o.val := by
    show win1_3.index t 1 * 512 + 1 * o.val = _; rw [e6]; omega
  show out1_3 (scAt V c t.val t.isLt) (iblk1 V c 1 t) (iblk1 V c 2 t) (ix2 r o)
    = G1 (V c main_v9) (V c main_v8) (V c main_arg3) (((cfg1.win 3).blk t).view.emb (ix2 r o))
  refine (out1_3_apply _ _ _ r o).trans ?_
  unfold G1
  refine congrArg₂ (· + ·) (Finset.sum_congr rfl fun k _ => congrArg₂ (· * ·) ?_ ?_) ?_
  · exact scAt_apply V c t.val t.isLt r k _ hr rfl
  · exact iblk1_1_apply V c t o k _ ho rfl
  · exact iblk1_2_apply V c t o _ ho

/-- An entry of the result array is in point t's block iff each coordinate is in the block's range on its axis. -/
theorem mem_blk1 (t : Fin cfg1.N) (i : S8192x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v10).slice (win1_3.rect t)).set ↔ _
  rw [View.set_slice_whole, Rect.mem_set_unit]
  exact Iff.rfl

/-- Every entry (r, o) of the result is in the block of the point 8 (r / 512) + o / 512. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  have hlt : 8 * ((i 0).val / 512) + (i 1).val / 512 < cfg1.N := by rw [hN]; omega
  refine ⟨⟨8 * ((i 0).val / 512) + (i 1).val / 512, hlt⟩, flush1_3 _, ?_⟩
  obtain ⟨-, -, -, -, -, e5, e6⟩ := idx1 ⟨8 * ((i 0).val / 512) + (i 1).val / 512, hlt⟩
  rw [mem_blk1]
  intro a
  match a with
  | ⟨0, _⟩ =>
    show win1_3.index ⟨8 * ((i 0).val / 512) + (i 1).val / 512, hlt⟩ 0 * 512 ≤ (i 0).val ∧ (i 0).val < win1_3.index ⟨8 * ((i 0).val / 512) + (i 1).val / 512, hlt⟩ 0 * 512 + 512
    rw [e5]
    show (8 * ((i 0).val / 512) + (i 1).val / 512) / 8 * 512 ≤ (i 0).val ∧ (i 0).val < (8 * ((i 0).val / 512) + (i 1).val / 512) / 8 * 512 + 512
    omega
  | ⟨1, _⟩ =>
    show win1_3.index ⟨8 * ((i 0).val / 512) + (i 1).val / 512, hlt⟩ 1 * 512 ≤ (i 1).val ∧ (i 1).val < win1_3.index ⟨8 * ((i 0).val / 512) + (i 1).val / 512, hlt⟩ 1 * 512 + 512
    rw [e6]
    show (8 * ((i 0).val / 512) + (i 1).val / 512) % 8 * 512 ≤ (i 1).val ∧ (i 1).val < (8 * ((i 0).val / 512) + (i 1).val / 512) % 8 * 512 + 512
    omega

/-- The result array after the region is that function of the three arrays. -/
theorem arr1 : (dat1 (F := Ideal) V c).arrAt 3 cfg1.N = G1 (xarr V c) (warr V c) (barr V c) :=
  (dat1 (F := Ideal) V c).arrAt_eq_of_cover 3 (G1 (V c main_v9) (V c main_v8) (V c main_arg3))
    (fun t _ => flushed1_eq V c t) cover1

/-- Entry by entry: entry (r, o) of the result array after the region is row r of the input array against row o of the
    weight array, plus the bias at o. -/
theorem arr1_apply (r : Fin 8192) (o : Fin 4096) :
    ((dat1 (F := Ideal) V c).arrAt 3 cfg1.N : S8192x4096.Idx → EReal) (ix2 r o)
      = (∑ k : Fin 4096, xarr V c (ix2 r k) * warr V c (ix2 o k)) + barr V c (ix1 o) :=
  congrFun (arr1 V c) (ix2 r o)

end Cert.KernelIdeal.Hand

end
-- ==== Proof.Decode.lean ====
/-
  The finite check behind the two decoding chains: on each of the sixteen 4-bit words, the chain that does
  arithmetic on the code's bits and the chain that looks the magnitude up in the table of eight literals both
  give the value the e2m1 format assigns to the word.

  Three ingredients. (1) A word below 16 is one of the sixteen literals 0, ..., 15, so a statement about every such
  word is sixteen closed statements. (2) The eight float patterns the chains spell denote the reals
  0, 1/2, 1, 3/2, 2, 3, 4, 6, and an integer word converted to a float denotes that integer. (3) On a closed word
  the masks, shifts, subtraction and comparisons evaluate to closed words, the selections pick a branch, and what
  is left is an identity between rational numbers: for the magnitude code c = 2a + b (a in 1..3, b in 0..1) the
  value 2^(a-1) * (1 + b/2) is 1, 3/2, 2, 3, 4, 6 for c = 2, ..., 7, and c/2 is 0, 1/2 for c = 0, 1; a set sign bit
  turns the magnitude m into 0 - m = -m.
-/
import proofs.«415060_j42649025249834_3_alg».proof.Proof.Spec
import Mathlib.Tactic.NormNum
import Mathlib.Tactic.IntervalCases

noncomputable section

namespace Cert.Fp4

open Idealize.ShloMosaic

/-! ### A code is a 4-bit word

Masking with 15 keeps bits 3..0, so the result is at most 15 whatever was masked. -/

theorem hiNib_lt (w : BitVec 32) : (hiNib w).toNat < 16 := by
  unfold hiNib IntOp.andi
  rw [BitVec.toNat_and]
  exact Nat.lt_succ_of_le Nat.and_le_right

theorem loNib_lt (w : BitVec 32) : (loNib w).toNat < 16 := by
  unfold loNib IntOp.andi
  rw [BitVec.toNat_and]
  exact Nat.lt_succ_of_le Nat.and_le_right

/-- A 32-bit word whose value is below 16 is one of the sixteen literals: the word is determined by its value,
    and the value is one of 0, ..., 15. -/
theorem cases16 (n : BitVec 32) (h : n.toNat < 16) :
    n = 0#32 ∨ n = 1#32 ∨ n = 2#32 ∨ n = 3#32 ∨ n = 4#32 ∨ n = 5#32 ∨ n = 6#32 ∨ n = 7#32 ∨
    n = 8#32 ∨ n = 9#32 ∨ n = 10#32 ∨ n = 11#32 ∨ n = 12#32 ∨ n = 13#32 ∨ n = 14#32 ∨ n = 15#32 := by
  have hn : n = BitVec.ofNat 32 n.toNat := by simp
  generalize n.toNat = k at h hn
  subst hn
  interval_cases k <;> simp

/-! ### The float patterns as reals

A single-precision pattern with sign 0, biased exponent E in 1..254 and fraction T denotes
(2^23 + T) * 2^(E - 127 - 23). The eight patterns below have E in 126..129 and T in {0, 2^22}; the all-zero
pattern denotes 0. -/

/-- `0x00000000` is +0. -/
theorem lit_zero : Ideal.ofBits .f32 0x00000000#32 = ((0 : ℝ) : EReal) := by
  simp [Ideal.ofBits, Ideal.ieee]
/-- `0x3F000000`: E = 126, T = 0, so 2^23 * 2^(-24) = 1/2. -/
theorem lit_half : Ideal.ofBits .f32 0x3F000000#32 = ((1/2 : ℝ) : EReal) := by
  simp [Ideal.ofBits, Ideal.ieee, -EReal.coe_mul]; norm_num
/-- `0x3F800000`: E = 127, T = 0, so 2^23 * 2^(-23) = 1. -/
theorem lit_one : Ideal.ofBits .f32 0x3F800000#32 = ((1 : ℝ) : EReal) := by
  simp [Ideal.ofBits, Ideal.ieee, -EReal.coe_mul]; norm_num
/-- `0x3FC00000`: E = 127, T = 2^22, so (2^23 + 2^22) * 2^(-23) = 3/2. -/
theorem lit_three_halves : Ideal.ofBits .f32 0x3FC00000#32 = ((3/2 : ℝ) : EReal) := by
  simp [Ideal.ofBits, Ideal.ieee, -EReal.coe_mul]; norm_num
/-- `0x40000000`: E = 128, T = 0, so 2^23 * 2^(-22) = 2. -/
theorem lit_two : Ideal.ofBits .f32 0x40000000#32 = ((2 : ℝ) : EReal) := by
  simp [Ideal.ofBits, Ideal.ieee, -EReal.coe_mul]; norm_num
/-- `0x40400000`: E = 128, T = 2^22, so (2^23 + 2^22) * 2^(-22) = 3. -/
theorem lit_three : Ideal.ofBits .f32 0x40400000#32 = ((3 : ℝ) : EReal) := by
  simp [Ideal.ofBits, Ideal.ieee, -EReal.coe_mul]; norm_num
/-- `0x40800000`: E = 129, T = 0, so 2^23 * 2^(-21) = 4. -/
theorem lit_four : Ideal.ofBits .f32 0x40800000#32 = ((4 : ℝ) : EReal) := by
  simp [Ideal.ofBits, Ideal.ieee, -EReal.coe_mul]; norm_num
/-- `0x40C00000`: E = 129, T = 2^22, so (2^23 + 2^22) * 2^(-21) = 6. -/
theorem lit_six : Ideal.ofBits .f32 0x40C00000#32 = ((6 : ℝ) : EReal) := by
  simp [Ideal.ofBits, Ideal.ieee, -EReal.coe_mul]; norm_num

/-- Over the extended reals a signed integer word converts to the integer it denotes, exactly. -/
theorem sitofp_ideal {w : Nat} (b : BitVec w) :
    FloatOps.sitofp (F := Ideal) .f32 b = ((b.toInt : ℝ) : EReal) := rfl

/-! ### The format's value on each word

Entry `k` of the table of sixteen values, read off at the closed index `k mod 16 = k`. -/

theorem fp4_0 : fp4 0#32 = ((0 : ℝ) : EReal) := rfl
theorem fp4_1 : fp4 1#32 = ((1/2 : ℝ) : EReal) := rfl
theorem fp4_2 : fp4 2#32 = ((1 : ℝ) : EReal) := rfl
theorem fp4_3 : fp4 3#32 = ((3/2 : ℝ) : EReal) := rfl
theorem fp4_4 : fp4 4#32 = ((2 : ℝ) : EReal) := rfl
theorem fp4_5 : fp4 5#32 = ((3 : ℝ) : EReal) := rfl
theorem fp4_6 : fp4 6#32 = ((4 : ℝ) : EReal) := rfl
theorem fp4_7 : fp4 7#32 = ((6 : ℝ) : EReal) := rfl
theorem fp4_8 : fp4 8#32 = ((-0 : ℝ) : EReal) := rfl
theorem fp4_9 : fp4 9#32 = ((-(1/2) : ℝ) : EReal) := rfl
theorem fp4_10 : fp4 10#32 = ((-1 : ℝ) : EReal) := rfl
theorem fp4_11 : fp4 11#32 = ((-(3/2) : ℝ) : EReal) := rfl
theorem fp4_12 : fp4 12#32 = ((-2 : ℝ) : EReal) := rfl
theorem fp4_13 : fp4 13#32 = ((-3 : ℝ) : EReal) := rfl
theorem fp4_14 : fp4 14#32 = ((-4 : ℝ) : EReal) := rfl
theorem fp4_15 : fp4 15#32 = ((-6 : ℝ) : EReal) := rfl

/-! ### The two chains on each word

On a closed word `n` every word operation of the bit chain evaluates: `n &&& 7` is the magnitude code `c`,
`(n >>> 3) &&& 1` the sign, `(c >>> 1) - 1` the exponent that selects 1, 2 or 4, `c &&& 1` the half bit, and
`c < 2` decides between `c * (1/2)` and `2^e * (1 + (1/2) * b)`. With the literals read as reals the claim is an
identity of rationals. The table chain reads entry `n mod 8` and negates it when `n / 8` is odd. -/

/-- Evaluate the bit chain on a closed word and compare rationals. -/
local macro "kdec_case" : tactic => `(tactic|
  (simp [kdec, IntOp.andi, IntOp.shrsi, IntOp.subi, IntOp.cmpi, Scalar.select, sitofp_ideal,
      lit_zero, lit_half, lit_one, lit_two, lit_four] <;> (try norm_cast) <;> (try norm_num)))

/-- Evaluate the table chain on a closed word and compare rationals. -/
local macro "rdec_case" : tactic => `(tactic|
  (simp [rdec, lut, lit_zero, lit_half, lit_one, lit_three_halves, lit_two, lit_three, lit_four, lit_six]
    <;> (try norm_cast) <;> (try norm_num)))

theorem kdec_0 : kdec 0#32 = fp4 0#32 := by rw [fp4_0]; kdec_case
theorem kdec_1 : kdec 1#32 = fp4 1#32 := by rw [fp4_1]; kdec_case
theorem kdec_2 : kdec 2#32 = fp4 2#32 := by rw [fp4_2]; kdec_case
theorem kdec_3 : kdec 3#32 = fp4 3#32 := by rw [fp4_3]; kdec_case
theorem kdec_4 : kdec 4#32 = fp4 4#32 := by rw [fp4_4]; kdec_case
theorem kdec_5 : kdec 5#32 = fp4 5#32 := by rw [fp4_5]; kdec_case
theorem kdec_6 : kdec 6#32 = fp4 6#32 := by rw [fp4_6]; kdec_case
theorem kdec_7 : kdec 7#32 = fp4 7#32 := by rw [fp4_7]; kdec_case
theorem kdec_8 : kdec 8#32 = fp4 8#32 := by rw [fp4_8]; kdec_case
theorem kdec_9 : kdec 9#32 = fp4 9#32 := by rw [fp4_9]; kdec_case
theorem kdec_10 : kdec 10#32 = fp4 10#32 := by rw [fp4_10]; kdec_case
theorem kdec_11 : kdec 11#32 = fp4 11#32 := by rw [fp4_11]; kdec_case
theorem kdec_12 : kdec 12#32 = fp4 12#32 := by rw [fp4_12]; kdec_case
theorem kdec_13 : kdec 13#32 = fp4 13#32 := by rw [fp4_13]; kdec_case
theorem kdec_14 : kdec 14#32 = fp4 14#32 := by rw [fp4_14]; kdec_case
theorem kdec_15 : kdec 15#32 = fp4 15#32 := by rw [fp4_15]; kdec_case

theorem rdec_0 : rdec 0#32 = fp4 0#32 := by rw [fp4_0]; rdec_case
theorem rdec_1 : rdec 1#32 = fp4 1#32 := by rw [fp4_1]; rdec_case
theorem rdec_2 : rdec 2#32 = fp4 2#32 := by rw [fp4_2]; rdec_case
theorem rdec_3 : rdec 3#32 = fp4 3#32 := by rw [fp4_3]; rdec_case
theorem rdec_4 : rdec 4#32 = fp4 4#32 := by rw [fp4_4]; rdec_case
theorem rdec_5 : rdec 5#32 = fp4 5#32 := by rw [fp4_5]; rdec_case
theorem rdec_6 : rdec 6#32 = fp4 6#32 := by rw [fp4_6]; rdec_case
theorem rdec_7 : rdec 7#32 = fp4 7#32 := by rw [fp4_7]; rdec_case
theorem rdec_8 : rdec 8#32 = fp4 8#32 := by rw [fp4_8]; rdec_case
theorem rdec_9 : rdec 9#32 = fp4 9#32 := by rw [fp4_9]; rdec_case
theorem rdec_10 : rdec 10#32 = fp4 10#32 := by rw [fp4_10]; rdec_case
theorem rdec_11 : rdec 11#32 = fp4 11#32 := by rw [fp4_11]; rdec_case
theorem rdec_12 : rdec 12#32 = fp4 12#32 := by rw [fp4_12]; rdec_case
theorem rdec_13 : rdec 13#32 = fp4 13#32 := by rw [fp4_13]; rdec_case
theorem rdec_14 : rdec 14#32 = fp4 14#32 := by rw [fp4_14]; rdec_case
theorem rdec_15 : rdec 15#32 = fp4 15#32 := by rw [fp4_15]; rdec_case

/-! ### Every 4-bit word -/

/-- The bit chain computes the format's value on every word below 16. -/
theorem kdec_eq (n : BitVec 32) (h : n.toNat < 16) : kdec n = fp4 n := by
  rcases cases16 n h with rfl | rfl | rfl | rfl | rfl | rfl | rfl | rfl | rfl | rfl | rfl | rfl | rfl | rfl | rfl | rfl
  exacts [kdec_0, kdec_1, kdec_2, kdec_3, kdec_4, kdec_5, kdec_6, kdec_7, kdec_8, kdec_9, kdec_10, kdec_11, kdec_12, kdec_13, kdec_14, kdec_15]

/-- The table chain computes the format's value on every word below 16. -/
theorem rdec_eq (n : BitVec 32) (h : n.toNat < 16) : rdec n = fp4 n := by
  rcases cases16 n h with rfl | rfl | rfl | rfl | rfl | rfl | rfl | rfl | rfl | rfl | rfl | rfl | rfl | rfl | rfl | rfl
  exacts [rdec_0, rdec_1, rdec_2, rdec_3, rdec_4, rdec_5, rdec_6, rdec_7, rdec_8, rdec_9, rdec_10, rdec_11, rdec_12, rdec_13, rdec_14, rdec_15]

end Cert.Fp4

end
-- ==== Proof.KValue.lean ====
/-
  The kernel program's result is the specification's: the last reshape reads the matrix product's output, whose entry
  (r, o) is row r of the flattened input against row o of the interleaved decoded weights plus the bias at o; an even
  column 2 q of that matrix is the decoded high code of word (o, q) and an odd column 2 q + 1 its decoded low code, each
  times the scale of its block of 128 codes; and the arithmetic decoding of a 4-bit code is its value.
-/
import proofs.«415060_j42649025249834_3_alg».proof.Proof.KRun
import proofs.«415060_j42649025249834_3_alg».proof.Proof.KHost
import proofs.«415060_j42649025249834_3_alg».proof.Proof.KVal0
import proofs.«415060_j42649025249834_3_alg».proof.Proof.KVal1
import proofs.«415060_j42649025249834_3_alg».proof.Proof.Spec
import proofs.«415060_j42649025249834_3_alg».proof.Proof.Decode

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- Entry (o, k) of the matrix the second region multiplies by is the specification's weight: column k is code
    k mod 2 of word (o, k / 2), that is code 4096 o + k of the stream, and the scale of column k / 2 of the per-column
    scales is the scale of block (4096 o + k) / 128. -/
theorem wmat_apply (o k : Fin 4096) :
    warr (E3 m) c (ix2 o k)
      = Cert.Fp4.weight (m ((c : Thread nD τ).loc main_arg1)) (m ((c : Thread nD τ).loc main_arg2)) o k := by
  show (V3 m (outs2 m) c main_v8 : S4096x4096.Idx → EReal) (ix2 o k) = _
  rw [V3_v8_apply]
  unfold Cert.Fp4.weight Cert.Fp4.code
  have e1 : (⟨(o.val * 4096 + k.val) / 2, by omega⟩ : Fin 8388608) = ⟨o.val * 2048 + k.val / 2, by omega⟩ := Fin.ext (by dsimp only; omega)
  have e2 : (⟨(o.val * 4096 + k.val) / 128, by omega⟩ : Fin 131072) = ⟨o.val * 32 + k.val / 2 / 64, by omega⟩ := Fin.ext (by dsimp only; omega)
  have hv0 := V1_v0_apply m c o ⟨k.val / 2, by omega⟩
  have hv3 := V1_v3_apply m c o ⟨k.val / 2, by omega⟩
  by_cases hk : k.val % 2 = 0
  · have hj : (o.val * 4096 + k.val) % 2 = 0 := by omega
    rw [if_pos hk]
    simp only [hj, if_true, e1, e2]
    show (W2 m c (Proc.devRef .tc (Pipeline.arrRef spec0 2)) : S4096x2048.Idx → EReal) (ix2 o ⟨k.val / 2, by omega⟩) = _
    rw [W2_arr m c 2, arr0_hi (E1 m) c]
    show Cert.Fp4.kdec (Cert.Fp4.hiNib ((V1 m c main_v0 : S4096x2048.Idx → Elt Ideal .i32) (ix2 o ⟨k.val / 2, by omega⟩)))
        * (V1 m c main_v3 : S4096x2048.Idx → Elt Ideal .f32) (ix2 o ⟨k.val / 2, by omega⟩) = _
    rw [hv0, hv3, Cert.Fp4.kdec_eq _ (Cert.Fp4.hiNib_lt _)]
  · have hj : ¬ (o.val * 4096 + k.val) % 2 = 0 := by omega
    rw [if_neg hk]
    simp only [hj, if_false, e1, e2]
    show (W2 m c (Proc.devRef .tc (Pipeline.arrRef spec0 3)) : S4096x2048.Idx → EReal) (ix2 o ⟨k.val / 2, by omega⟩) = _
    rw [W2_arr m c 3, arr0_lo (E1 m) c]
    show Cert.Fp4.kdec (Cert.Fp4.loNib ((V1 m c main_v0 : S4096x2048.Idx → Elt Ideal .i32) (ix2 o ⟨k.val / 2, by omega⟩)))
        * (V1 m c main_v3 : S4096x2048.Idx → Elt Ideal .f32) (ix2 o ⟨k.val / 2, by omega⟩) = _
    rw [hv0, hv3, Cert.Fp4.kdec_eq _ (Cert.Fp4.loNib_lt _)]

/-- Row 2048 b + t of the flattened input is row (b, t) of the input. -/
theorem xrow_apply (b : Fin 4) (t : Fin 2048) (k : Fin 4096) :
    xarr (E3 m) c (ix2 ⟨b.val * 2048 + t.val, by omega⟩ k)
      = (m ((c : Thread nD τ).loc main_arg0) : S4x2048x4096.Idx → EReal) (ix3 b t k) := by
  show (V3 m (outs2 m) c main_v9 : S8192x4096.Idx → EReal) (ix2 ⟨b.val * 2048 + t.val, by omega⟩ k) = _
  rw [V3_v9_apply]
  have eb : (⟨(b.val * 2048 + t.val) / 2048, by omega⟩ : Fin 4) = b := Fin.ext (by dsimp only; omega)
  have et : (⟨(b.val * 2048 + t.val) % 2048, by omega⟩ : Fin 2048) = t := Fin.ext (by dsimp only; omega)
  simp only [eb, et]

/-- THE KERNEL'S VALUE: the result buffer's last contents are the specification's result of the launch arrays. -/
theorem kernel_value :
    (V5 m (outsK m) c main_v11 : S4x2048x4096.Idx → EReal)
      = Cert.Fp4.result (m ((c : Thread nD τ).loc main_arg0)) (m ((c : Thread nD τ).loc main_arg1))
          (m ((c : Thread nD τ).loc main_arg2)) (m ((c : Thread nD τ).loc main_arg3)) := by
  funext i
  obtain ⟨b, t, o, rfl⟩ : ∃ (b : Fin 4) (t : Fin 2048) (o : Fin 4096), i = ix3 b t o := ⟨i 0, i 1, i 2, eq_ix3 i⟩
  rw [V5_v11_apply]
  show (W4 m c (Proc.devRef .tc (Pipeline.arrRef spec1 3)) : S8192x4096.Idx → EReal) (ix2 ⟨b.val * 2048 + t.val, by omega⟩ o)
    = Cert.Fp4.out _ _ _ _ b t o
  rw [W4_arr m c 3, arr1_apply (E3 m) c ⟨b.val * 2048 + t.val, by omega⟩ o]
  unfold Cert.Fp4.out
  have hb : barr (E3 m) c (ix1 o) = (m ((c : Thread nD τ).loc main_arg3) : S4096.Idx → EReal) (ix1 o) := by
    show (V3 m (outs2 m) c main_arg3 : S4096.Idx → EReal) (ix1 o) = _
    rw [V3_arg3]
  rw [hb]
  refine congrArg (· + _) (Finset.sum_congr rfl fun k _ => ?_)
  rw [wmat_apply m c o k, xrow_apply m c b t k]

end Cert.KernelIdeal.Hand

end
-- ==== Proof.RefTerm.lean ====
/-
  The reference's result as one pure function of its four argument arrays.

  The packed words are split into their two 4-bit codes (high code: an arithmetic shift by four, then the mask
  fifteen; low code: the mask fifteen), the two code arrays are laid side by side as the two columns of an
  8388608 x 2 array, and that array read row by row is the code stream (high before low, word after word).
  A code's bit 3 is its sign, its bits 2..0 index the table of the eight magnitudes; the signed magnitude is
  scaled by the scale of its block of 128 codes, the scaled stream is the 4096 x 4096 weight matrix row by row,
  and the result is x contracted with that matrix over the last axis plus the bias along the last axis.

  Every stage below is the composition of the program's own operations, so that the run of the program ends
  with its result buffer at `term` of the argument buffers by unfolding.
-/
import proofs.«415060_j42649025249834_3_alg».proof.ReferenceIdeal

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The scalar integer `n` at every word of the packed array. -/
def splatW (n : BitVec 32) : (⟨S8388608, .i32⟩ : BufTy).Contents (Elt F) :=
  (broadcastInDim S8388608 ![] bcast_S_S8388608 : (⟨S_, .i32⟩ : BufTy).Contents (Elt F) → (⟨S8388608, .i32⟩ : BufTy).Contents (Elt F))
    (constantI S_ 32 n)

/-- The scalar integer `n` at every code of the stream. -/
def splatC (n : BitVec 32) : (⟨S16777216, .i32⟩ : BufTy).Contents (Elt F) :=
  (broadcastInDim S16777216 ![] bcast_S_S16777216 : (⟨S_, .i32⟩ : BufTy).Contents (Elt F) → (⟨S16777216, .i32⟩ : BufTy).Contents (Elt F))
    (constantI S_ 32 n)

/-- The high code of every packed word: bits 7..4 (shift right by four, arithmetically, then mask with fifteen). -/
def hi (p : (⟨S8388608, .i32⟩ : BufTy).Contents (Elt F)) : (⟨S8388608, .i32⟩ : BufTy).Contents (Elt F) :=
  (andi : (⟨S8388608, .i32⟩ : BufTy).Contents (Elt F) → (⟨S8388608, .i32⟩ : BufTy).Contents (Elt F) → (⟨S8388608, .i32⟩ : BufTy).Contents (Elt F))
    ((Host.shrsi : (⟨S8388608, .i32⟩ : BufTy).Contents (Elt F) → (⟨S8388608, .i32⟩ : BufTy).Contents (Elt F) → (⟨S8388608, .i32⟩ : BufTy).Contents (Elt F))
      p (splatW (F := F) 4#32))
    (splatW (F := F) 15#32)

/-- The low code of every packed word: bits 3..0 (mask with fifteen). -/
def lo (p : (⟨S8388608, .i32⟩ : BufTy).Contents (Elt F)) : (⟨S8388608, .i32⟩ : BufTy).Contents (Elt F) :=
  (andi : (⟨S8388608, .i32⟩ : BufTy).Contents (Elt F) → (⟨S8388608, .i32⟩ : BufTy).Contents (Elt F) → (⟨S8388608, .i32⟩ : BufTy).Contents (Elt F))
    p (splatW (F := F) 15#32)

/-- A word array as a one-column matrix. -/
def col (a : (⟨S8388608, .i32⟩ : BufTy).Contents (Elt F)) : (⟨S8388608x1, .i32⟩ : BufTy).Contents (Elt F) :=
  (broadcastInDim S8388608x1 ![0] bcast_S8388608_S8388608x1_0 : (⟨S8388608, .i32⟩ : BufTy).Contents (Elt F) → (⟨S8388608x1, .i32⟩ : BufTy).Contents (Elt F)) a

/-- The two code columns side by side: row w holds word w's high code, then its low code. -/
def paired (p : (⟨S8388608, .i32⟩ : BufTy).Contents (Elt F)) : (⟨S8388608x2, .i32⟩ : BufTy).Contents (Elt F) :=
  ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F))
    (col (hi p)) (col (lo p))

/-- The code stream: the paired codes read row by row, so code 2w is word w's high code and code 2w+1 its low code. -/
def unpacked (p : (⟨S8388608, .i32⟩ : BufTy).Contents (Elt F)) : (⟨S16777216, .i32⟩ : BufTy).Contents (Elt F) :=
  fun i => shapeCast S16777216 (paired p) shapeCasts_S8388608x2_S16777216 i

/-- Every code's sign bit: bit 3 (shift right by three, then mask with one). -/
def sgn (p : (⟨S8388608, .i32⟩ : BufTy).Contents (Elt F)) : (⟨S16777216, .i32⟩ : BufTy).Contents (Elt F) :=
  (andi : (⟨S16777216, .i32⟩ : BufTy).Contents (Elt F) → (⟨S16777216, .i32⟩ : BufTy).Contents (Elt F) → (⟨S16777216, .i32⟩ : BufTy).Contents (Elt F))
    ((Host.shrsi : (⟨S16777216, .i32⟩ : BufTy).Contents (Elt F) → (⟨S16777216, .i32⟩ : BufTy).Contents (Elt F) → (⟨S16777216, .i32⟩ : BufTy).Contents (Elt F))
      (unpacked p) (splatC (F := F) 3#32))
    (splatC (F := F) 1#32)

/-- Every code's magnitude index: bits 2..0 (mask with seven). -/
def idx (p : (⟨S8388608, .i32⟩ : BufTy).Contents (Elt F)) : (⟨S16777216, .i32⟩ : BufTy).Contents (Elt F) :=
  (andi : (⟨S16777216, .i32⟩ : BufTy).Contents (Elt F) → (⟨S16777216, .i32⟩ : BufTy).Contents (Elt F) → (⟨S16777216, .i32⟩ : BufTy).Contents (Elt F))
    (unpacked p) (splatC (F := F) 7#32)

/-- The magnitude index with a negative one wrapped by the table's length: eight is added where the index is below zero. -/
def idxWrapped (p : (⟨S8388608, .i32⟩ : BufTy).Contents (Elt F)) : (⟨S16777216, .i32⟩ : BufTy).Contents (Elt F) :=
  (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F))
    ((cmpi .slt : (⟨S16777216, .i32⟩ : BufTy).Contents (Elt F) → (⟨S16777216, .i32⟩ : BufTy).Contents (Elt F) → (⟨S16777216, .i1⟩ : BufTy).Contents (Elt F))
      (idx p) (splatC (F := F) 0#32))
    ((addi : (⟨S16777216, .i32⟩ : BufTy).Contents (Elt F) → (⟨S16777216, .i32⟩ : BufTy).Contents (Elt F) → (⟨S16777216, .i32⟩ : BufTy).Contents (Elt F))
      (idx p) (splatC (F := F) 8#32))
    (idx p)

/-- The table of the eight magnitudes 0, 1/2, 1, 3/2, 2, 3, 4, 6 as float words. -/
def table : (⟨S8, .f32⟩ : BufTy).Contents (Elt F) :=
  fun i => FloatOps.ofBits .f32 (lit0 (S8.rowMajor i))

/-- Every code's magnitude: the table's entry at the wrapped index. -/
def mags (p : (⟨S8388608, .i32⟩ : BufTy).Contents (Elt F)) : (⟨S16777216, .f32⟩ : BufTy).Contents (Elt F) :=
  ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F))
    table
    ((broadcastInDim S16777216x1 ![0] bcast_S16777216_S16777216x1_0 : (⟨S16777216, .i32⟩ : BufTy).Contents (Elt F) → (⟨S16777216x1, .i32⟩ : BufTy).Contents (Elt F))
      (idxWrapped p))

/-- Every code's value: the magnitude, negated where the sign bit is one. -/
def vals (p : (⟨S8388608, .i32⟩ : BufTy).Contents (Elt F)) : (⟨S16777216, .f32⟩ : BufTy).Contents (Elt F) :=
  (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F))
    ((cmpi .eq : (⟨S16777216, .i32⟩ : BufTy).Contents (Elt F) → (⟨S16777216, .i32⟩ : BufTy).Contents (Elt F) → (⟨S16777216, .i1⟩ : BufTy).Contents (Elt F))
      (sgn p) (splatC (F := F) 1#32))
    ((Host.negf : (⟨S16777216, .f32⟩ : BufTy).Contents (Elt F) → (⟨S16777216, .f32⟩ : BufTy).Contents (Elt F)) (mags p))
    (mags p)

/-- The scales, one per block, repeated along each block's 128 codes. -/
def scalesB (s : (⟨S131072, .f32⟩ : BufTy).Contents (Elt F)) : (⟨S131072x128, .f32⟩ : BufTy).Contents (Elt F) :=
  (broadcastInDim S131072x128 ![0, 1] bcast_S131072x1_S131072x128_0_1 : (⟨S131072x1, .f32⟩ : BufTy).Contents (Elt F) → (⟨S131072x128, .f32⟩ : BufTy).Contents (Elt F))
    ((broadcastInDim S131072x1 ![0] bcast_S131072_S131072x1_0 : (⟨S131072, .f32⟩ : BufTy).Contents (Elt F) → (⟨S131072x1, .f32⟩ : BufTy).Contents (Elt F)) s)

/-- The scaled values, block by block: the value stream in rows of 128, each row times its block's scale. -/
def deq (p : (⟨S8388608, .i32⟩ : BufTy).Contents (Elt F)) (s : (⟨S131072, .f32⟩ : BufTy).Contents (Elt F)) :
    (⟨S131072x128, .f32⟩ : BufTy).Contents (Elt F) :=
  (mulf : (⟨S131072x128, .f32⟩ : BufTy).Contents (Elt F) → (⟨S131072x128, .f32⟩ : BufTy).Contents (Elt F) → (⟨S131072x128, .f32⟩ : BufTy).Contents (Elt F))
    (fun i => shapeCast S131072x128 (vals p) shapeCasts_S16777216_S131072x128 i)
    (scalesB s)

/-- The weight matrix: the scaled stream read row by row as 4096 rows of 4096. -/
def wmat (p : (⟨S8388608, .i32⟩ : BufTy).Contents (Elt F)) (s : (⟨S131072, .f32⟩ : BufTy).Contents (Elt F)) :
    (⟨S4096x4096, .f32⟩ : BufTy).Contents (Elt F) :=
  fun i => shapeCast S4096x4096
    ((fun j => shapeCast S16777216 (deq p s) shapeCasts_S131072x128_S16777216 j) : (⟨S16777216, .f32⟩ : BufTy).Contents (Elt F))
    shapeCasts_S16777216_S4096x4096 i

/-- The bias along the last axis of the result's shape. -/
def biasB (b : (⟨S4096, .f32⟩ : BufTy).Contents (Elt F)) : (⟨S4x2048x4096, .f32⟩ : BufTy).Contents (Elt F) :=
  (broadcastInDim S4x2048x4096 ![0, 1, 2] bcast_S1x1x4096_S4x2048x4096_0_1_2 : (⟨S1x1x4096, .f32⟩ : BufTy).Contents (Elt F) → (⟨S4x2048x4096, .f32⟩ : BufTy).Contents (Elt F))
    ((broadcastInDim S1x1x4096 ![2] bcast_S4096_S1x1x4096_2 : (⟨S4096, .f32⟩ : BufTy).Contents (Elt F) → (⟨S1x1x4096, .f32⟩ : BufTy).Contents (Elt F)) b)

/-- The reference's result: x contracted with the weight matrix over the last axis of each, plus the bias. -/
def term (x : (⟨S4x2048x4096, .f32⟩ : BufTy).Contents (Elt F)) (p : (⟨S8388608, .i32⟩ : BufTy).Contents (Elt F))
    (s : (⟨S131072, .f32⟩ : BufTy).Contents (Elt F)) (b : (⟨S4096, .f32⟩ : BufTy).Contents (Elt F)) :
    (⟨S4x2048x4096, .f32⟩ : BufTy).Contents (Elt F) :=
  (addf : (⟨S4x2048x4096, .f32⟩ : BufTy).Contents (Elt F) → (⟨S4x2048x4096, .f32⟩ : BufTy).Contents (Elt F) → (⟨S4x2048x4096, .f32⟩ : BufTy).Contents (Elt F))
    (((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F))
      x (wmat p s))
    (biasB b)

end Cert.ReferenceIdeal.RefValue

end
-- ==== Proof.RefRun.lean ====
/-
  The reference's run, read back: its main function is a straight line of forty-seven array operations (one of
  them the single select of the function it calls), so every weakly fair execution terminates, the result buffer
  ends at the operations' composition applied to the four argument arrays — which is `term` by unfolding its
  stages — and the argument buffers are left as they were.
-/
import proofs.«415060_j42649025249834_3_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The main function's forty-seven operations in order, the called function's one select in the call's place
    (operation thirty-seven, writing the call's result buffer). -/
abbrev ops : List (HloOp τ sig (Elt F)) :=
  [
    nullary main_cst (fun i => FloatOps.ofBits .f32 (lit0 (S8.rowMajor i))),
    nullary main_c (constantI S_ 32 4#32),
    unary main_c main_v0 (broadcastInDim S8388608 ![] bcast_S_S8388608 : (⟨S_, .i32⟩ : BufTy).Contents (Elt F) → (⟨S8388608, .i32⟩ : BufTy).Contents (Elt F)),
    binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    nullary main_c_0 (constantI S_ 32 15#32),
    unary main_c_0 main_v2 (broadcastInDim S8388608 ![] bcast_S_S8388608 : (⟨S_, .i32⟩ : BufTy).Contents (Elt F) → (⟨S8388608, .i32⟩ : BufTy).Contents (Elt F)),
    binary main_v1 main_v2 main_v3 (andi : (⟨S8388608, .i32⟩ : BufTy).Contents (Elt F) → (⟨S8388608, .i32⟩ : BufTy).Contents (Elt F) → (⟨S8388608, .i32⟩ : BufTy).Contents (Elt F)),
    nullary main_c_1 (constantI S_ 32 15#32),
    unary main_c_1 main_v4 (broadcastInDim S8388608 ![] bcast_S_S8388608 : (⟨S_, .i32⟩ : BufTy).Contents (Elt F) → (⟨S8388608, .i32⟩ : BufTy).Contents (Elt F)),
    binary main_arg1 main_v4 main_v5 (andi : (⟨S8388608, .i32⟩ : BufTy).Contents (Elt F) → (⟨S8388608, .i32⟩ : BufTy).Contents (Elt F) → (⟨S8388608, .i32⟩ : BufTy).Contents (Elt F)),
    unary main_v3 main_v6 (broadcastInDim S8388608x1 ![0] bcast_S8388608_S8388608x1_0 : (⟨S8388608, .i32⟩ : BufTy).Contents (Elt F) → (⟨S8388608x1, .i32⟩ : BufTy).Contents (Elt F)),
    unary main_v5 main_v7 (broadcastInDim S8388608x1 ![0] bcast_S8388608_S8388608x1_0 : (⟨S8388608, .i32⟩ : BufTy).Contents (Elt F) → (⟨S8388608x1, .i32⟩ : BufTy).Contents (Elt F)),
    binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v8 main_v9 rfl shapeCasts_S8388608x2_S16777216,
    nullary main_c_2 (constantI S_ 32 3#32),
    unary main_c_2 main_v10 (broadcastInDim S16777216 ![] bcast_S_S16777216 : (⟨S_, .i32⟩ : BufTy).Contents (Elt F) → (⟨S16777216, .i32⟩ : BufTy).Contents (Elt F)),
    binary main_v9 main_v10 main_v11 (Host.shrsi : (⟨S16777216, .i32⟩ : BufTy).Contents (Elt F) → (⟨S16777216, .i32⟩ : BufTy).Contents (Elt F) → (⟨S16777216, .i32⟩ : BufTy).Contents (Elt F)),
    nullary main_c_3 (constantI S_ 32 1#32),
    unary main_c_3 main_v12 (broadcastInDim S16777216 ![] bcast_S_S16777216 : (⟨S_, .i32⟩ : BufTy).Contents (Elt F) → (⟨S16777216, .i32⟩ : BufTy).Contents (Elt F)),
    binary main_v11 main_v12 main_v13 (andi : (⟨S16777216, .i32⟩ : BufTy).Contents (Elt F) → (⟨S16777216, .i32⟩ : BufTy).Contents (Elt F) → (⟨S16777216, .i32⟩ : BufTy).Contents (Elt F)),
    nullary main_c_4 (constantI S_ 32 7#32),
    unary main_c_4 main_v14 (broadcastInDim S16777216 ![] bcast_S_S16777216 : (⟨S_, .i32⟩ : BufTy).Contents (Elt F) → (⟨S16777216, .i32⟩ : BufTy).Contents (Elt F)),
    binary main_v9 main_v14 main_v15 (andi : (⟨S16777216, .i32⟩ : BufTy).Contents (Elt F) → (⟨S16777216, .i32⟩ : BufTy).Contents (Elt F) → (⟨S16777216, .i32⟩ : BufTy).Contents (Elt F)),
    nullary main_c_5 (constantI S_ 32 0#32),
    unary main_c_5 main_v16 (broadcastInDim S16777216 ![] bcast_S_S16777216 : (⟨S_, .i32⟩ : BufTy).Contents (Elt F) → (⟨S16777216, .i32⟩ : BufTy).Contents (Elt F)),
    binary main_v15 main_v16 main_v17 (cmpi .slt : (⟨S16777216, .i32⟩ : BufTy).Contents (Elt F) → (⟨S16777216, .i32⟩ : BufTy).Contents (Elt F) → (⟨S16777216, .i1⟩ : BufTy).Contents (Elt F)),
    nullary main_c_6 (constantI S_ 32 8#32),
    unary main_c_6 main_v18 (broadcastInDim S16777216 ![] bcast_S_S16777216 : (⟨S_, .i32⟩ : BufTy).Contents (Elt F) → (⟨S16777216, .i32⟩ : BufTy).Contents (Elt F)),
    binary main_v15 main_v18 main_v19 (addi : (⟨S16777216, .i32⟩ : BufTy).Contents (Elt F) → (⟨S16777216, .i32⟩ : BufTy).Contents (Elt F) → (⟨S16777216, .i32⟩ : BufTy).Contents (Elt F)),
    ternary main_v17 main_v19 main_v15 main_v20 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v20 main_v21 (broadcastInDim S16777216x1 ![0] bcast_S16777216_S16777216x1_0 : (⟨S16777216, .i32⟩ : BufTy).Contents (Elt F) → (⟨S16777216x1, .i32⟩ : BufTy).Contents (Elt F)),
    binary main_cst main_v21 main_v22 ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F)),
    nullary main_c_7 (constantI S_ 32 1#32),
    unary main_c_7 main_v23 (broadcastInDim S16777216 ![] bcast_S_S16777216 : (⟨S_, .i32⟩ : BufTy).Contents (Elt F) → (⟨S16777216, .i32⟩ : BufTy).Contents (Elt F)),
    binary main_v13 main_v23 main_v24 (cmpi .eq : (⟨S16777216, .i32⟩ : BufTy).Contents (Elt F) → (⟨S16777216, .i32⟩ : BufTy).Contents (Elt F) → (⟨S16777216, .i1⟩ : BufTy).Contents (Elt F)),
    unary main_v22 main_v25 (Host.negf : (⟨S16777216, .f32⟩ : BufTy).Contents (Elt F) → (⟨S16777216, .f32⟩ : BufTy).Contents (Elt F)),
    TRef.ternary (.of main_v24) (.of main_v25) (.of main_v22) main_call0.v0 select,
    reshape main_v26 main_v27 rfl shapeCasts_S16777216_S131072x128,
    unary main_arg2 main_v28 (broadcastInDim S131072x1 ![0] bcast_S131072_S131072x1_0 : (⟨S131072, .f32⟩ : BufTy).Contents (Elt F) → (⟨S131072x1, .f32⟩ : BufTy).Contents (Elt F)),
    unary main_v28 main_v29 (broadcastInDim S131072x128 ![0, 1] bcast_S131072x1_S131072x128_0_1 : (⟨S131072x1, .f32⟩ : BufTy).Contents (Elt F) → (⟨S131072x128, .f32⟩ : BufTy).Contents (Elt F)),
    binary main_v27 main_v29 main_v30 (mulf : (⟨S131072x128, .f32⟩ : BufTy).Contents (Elt F) → (⟨S131072x128, .f32⟩ : BufTy).Contents (Elt F) → (⟨S131072x128, .f32⟩ : BufTy).Contents (Elt F)),
    reshape main_v30 main_v31 rfl shapeCasts_S131072x128_S16777216,
    reshape main_v31 main_v32 rfl shapeCasts_S16777216_S4096x4096,
    binary main_arg0 main_v32 main_v33 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v34 (broadcastInDim S1x1x4096 ![2] bcast_S4096_S1x1x4096_2 : (⟨S4096, .f32⟩ : BufTy).Contents (Elt F) → (⟨S1x1x4096, .f32⟩ : BufTy).Contents (Elt F)),
    unary main_v34 main_v35 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v33 main_v35 main_v36 (addf : (⟨S4x2048x4096, .f32⟩ : BufTy).Contents (Elt F) → (⟨S4x2048x4096, .f32⟩ : BufTy).Contents (Elt F) → (⟨S4x2048x4096, .f32⟩ : BufTy).Contents (Elt F)) ]

-- forty-seven binds re-associated: the rewrite under the chain recurses once per statement
set_option maxRecDepth 2048 in
/-- The main function is that straight line: with the called function's body unfolded at its call and sequencing
    re-associated, both sides are one chain of steps. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., unary_bufs_sub ..,
    ternary_bufs_sub .., reshape_bufs_sub .., unary_bufs_sub .., unary_bufs_sub .., binary_bufs_sub .., reshape_bufs_sub ..,
    reshape_bufs_sub .., binary_bufs_sub .., unary_bufs_sub .., unary_bufs_sub .., binary_bufs_sub ..⟩

set_option maxHeartbeats 1000000 in
/-- The fold of the operations at the result buffer is `term` of the argument buffers' contents: each operation's
    result at its own buffer is its function of its operands' contents and at any other buffer what was there (one
    pass, then once more inside the operand list of the concatenation, which the pass does not enter); what is left
    is the operations' composition, which is `term` with its stages unfolded and the typed references' transports
    the identity. -/
theorem out_eq (V : Valuation τ sig (Elt F)) :
    after ops V (main_v36 : DevRef τ sig)
      = term (V (main_arg0 : DevRef τ sig)) (V (main_arg1 : DevRef τ sig)) (V (main_arg2 : DevRef τ sig))
          (V (main_arg3 : DevRef τ sig)) := by
  after_results_simp
  repeat (first
    | rw [nullary_result] | rw [unary_result] | rw [binary_result]
    | (rw [nullary_result_ne]; rotate_left; decide)
    | (rw [unary_result_ne]; rotate_left; decide)
    | (rw [binary_result_ne]; rotate_left; decide))
  rfl

/-- No operation writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of the
    main function terminates with the result buffer at `term` of the four argument arrays and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = term (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v36).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefRead.lean ====
/-
  The reference's result term, read at an index.

  Outermost first: the result at (b, t, o) is the contraction's value there plus the bias at o; the contraction is
  the sum over k of x[b, t, k] times entry (o, k) of the weight matrix; that entry, through the three reshapes around
  the scaling, is value number 4096 o + k of the stream times the scale of its block of 128; value number j is the
  table's entry at bits 2..0 of code number j, negated when bit 3 is set; and code number j, through the reshape of
  the two code columns laid side by side, is the high code of word j / 2 when j is even and its low code when j is
  odd. A code is a word below sixteen, where the table lookup (its wrap of a negative index and its clamp both the
  identity on an index below eight) is the table-lookup chain of the specification, which agrees with the code's
  value there. So the term is the specification's result, index by index.
-/
import proofs.«415060_j42649025249834_3_alg».proof.Proof.RefTerm
import proofs.«415060_j42649025249834_3_alg».proof.Proof.Spec
import proofs.«415060_j42649025249834_3_alg».proof.Proof.Decode
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StableHlo.Predicate

noncomputable section

open scoped BigOperators

namespace Cert.ReferenceIdeal.RefValue

open Idealize.ShloMosaic Idealize.ShloMosaic.ValueIdx Cert.ReferenceIdeal

section Pieces

variable [Facts₀]
open Facts₀

/-! ### The bias along the last axis -/

/-- The bias, broadcast to one row and then over batch and time, reads the bias at the output column. -/
theorem bias_apply (b : FVec Ideal S4096 .f32) (bb : Fin 4) (tt : Fin 2048) (o : Fin 4096) :
    broadcastInDim S4x2048x4096 ![0, 1, 2] bcast_S1x1x4096_S4x2048x4096_0_1_2
      (broadcastInDim S1x1x4096 ![2] bcast_S4096_S1x1x4096_2 b) (ix3 bb tt o) = b (ix1 o) := by
  refine (broadcastInDim_apply _ _ _ (ix3 bb tt o) (ix3 (0 : Fin 1) (0 : Fin 1) o) ?_).trans ?_
  · intro a
    match a with
    | ⟨0, _⟩ => rfl
    | ⟨1, _⟩ => rfl
    | ⟨2, _⟩ => rfl
  · exact broadcastInDim_apply _ _ _ _ (ix1 o) (fun a => match a with | ⟨0, _⟩ => rfl)

/-! ### The contraction: row (b, t) of x against row o of the weight matrix -/

theorem lhs_axis0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := by
  unfold DotDims.lhsIdx
  rw [dif_neg (show ¬(0 : Fin S4x2048x4096.rank) ∈ dot_S4x2048x4096_S4096x4096_S4x2048x4096_2_1_01_0_n_n.lhsBatch from List.not_mem_nil),
    dif_pos (show (0 : Fin S4x2048x4096.rank) ∈ dot_S4x2048x4096_S4096x4096_S4x2048x4096_2_1_01_0_n_n.lhsNonContracting from (by decide : (0 : Fin 3) ∈ [(0 : Fin 3), 1]))]
  rfl

theorem lhs_axis1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := by
  unfold DotDims.lhsIdx
  rw [dif_neg (show ¬(1 : Fin S4x2048x4096.rank) ∈ dot_S4x2048x4096_S4096x4096_S4x2048x4096_2_1_01_0_n_n.lhsBatch from List.not_mem_nil),
    dif_pos (show (1 : Fin S4x2048x4096.rank) ∈ dot_S4x2048x4096_S4096x4096_S4x2048x4096_2_1_01_0_n_n.lhsNonContracting from (by decide : (1 : Fin 3) ∈ [(0 : Fin 3), 1]))]
  rfl

theorem lhs_axis2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, Nat.one_pos⟩).val :=
  DotDims.lhsIdx_val_of_single _ rfl j k

theorem rhs_axis0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := by
  unfold DotDims.rhsIdx
  rw [dif_neg (show ¬(0 : Fin S4096x4096.rank) ∈ dot_S4x2048x4096_S4096x4096_S4x2048x4096_2_1_01_0_n_n.rhsBatch from List.not_mem_nil),
    dif_pos (show (0 : Fin S4096x4096.rank) ∈ dot_S4x2048x4096_S4096x4096_S4x2048x4096_2_1_01_0_n_n.rhsNonContracting from (by decide : (0 : Fin 2) ∈ [(0 : Fin 2)]))]
  rfl

theorem rhs_axis1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, Nat.one_pos⟩).val :=
  DotDims.rhsIdx_val_of_single _ rfl j k

/-- The product at (b, t, o) is the sum over k of x[b, t, k] · w[o, k]. -/
theorem dot_apply (x : FVec Ideal S4x2048x4096 .f32) (w : FVec Ideal S4096x4096 .f32) (bb : Fin 4) (tt : Fin 2048) (o : Fin 4096) :
    Host.dotGeneral (F := Ideal) dot_S4x2048x4096_S4096x4096_S4x2048x4096_2_1_01_0_n_n none x w (ix3 bb tt o)
      = ∑ k : Fin 4096, x (ix3 bb tt k) * w (ix2 o k) := by
  show FloatOps.dotGeneral dot_S4x2048x4096_S4096x4096_S4x2048x4096_2_1_01_0_n_n none .single x w (ix3 bb tt o) = _
  rw [Ideal.dotGeneral_apply,
    ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have hl : dot_S4x2048x4096_S4096x4096_S4x2048x4096_2_1_01_0_n_n.lhsIdx (ix3 bb tt o)
      ((contrEquiv1 dot_S4x2048x4096_S4096x4096_S4x2048x4096_2_1_01_0_n_n 4096 rfl rfl).symm k) = ix3 bb tt k := by
    funext a
    apply Fin.ext
    match a with
    | ⟨0, _⟩ => exact lhs_axis0 _ _
    | ⟨1, _⟩ => exact lhs_axis1 _ _
    | ⟨2, _⟩ => exact (lhs_axis2 _ _).trans hk
  have hr : dot_S4x2048x4096_S4096x4096_S4x2048x4096_2_1_01_0_n_n.rhsIdx (ix3 bb tt o)
      ((contrEquiv1 dot_S4x2048x4096_S4096x4096_S4x2048x4096_2_1_01_0_n_n 4096 rfl rfl).symm k) = ix2 o k := by
    funext a
    apply Fin.ext
    match a with
    | ⟨0, _⟩ => exact rhs_axis0 _ _
    | ⟨1, _⟩ => exact (rhs_axis1 _ _).trans hk
  rw [hl, hr]

/-! ### The reshapes around the scaling: entry (o, k) of the weight matrix is code 4096 o + k times its block's scale -/

theorem wmat_read (v : FVec Ideal S16777216 .f32) (s : FVec Ideal S131072 .f32) (o k : Fin 4096) :
    shapeCast S4096x4096
      (shapeCast S16777216
        (mulf (shapeCast S131072x128 v shapeCasts_S16777216_S131072x128)
          (broadcastInDim S131072x128 ![0, 1] bcast_S131072x1_S131072x128_0_1
            (broadcastInDim S131072x1 ![0] bcast_S131072_S131072x1_0 s)))
        shapeCasts_S131072x128_S16777216)
      shapeCasts_S16777216_S4096x4096 (ix2 o k)
    = v (ix1 ⟨o.val * 4096 + k.val, by omega⟩) * s (ix1 ⟨(o.val * 4096 + k.val) / 128, by omega⟩) := by
  have ho := o.isLt
  have hk := k.isLt
  have hn : o.val * 4096 + k.val < 16777216 := by omega
  have hq : (o.val * 4096 + k.val) / 128 < 131072 := by omega
  refine (shapeCast_apply _ _ (ix2 o k) (ix1 ⟨o.val * 4096 + k.val, hn⟩) ?_).trans ?_
  · rw [Shape.rowMajor_val_one, Shape.rowMajor_val_two]; rfl
  refine (shapeCast_apply _ _ (ix1 ⟨o.val * 4096 + k.val, hn⟩)
      (ix2 ⟨(o.val * 4096 + k.val) / 128, hq⟩ ⟨(o.val * 4096 + k.val) % 128, Nat.mod_lt _ (by decide)⟩) ?_).trans ?_
  · rw [Shape.rowMajor_val_one, Shape.rowMajor_val_two]
    show (o.val * 4096 + k.val) / 128 * 128 + (o.val * 4096 + k.val) % 128 = o.val * 4096 + k.val
    omega
  rw [mulf_apply]
  congr 1
  · refine shapeCast_apply _ _ _ (ix1 ⟨o.val * 4096 + k.val, hn⟩) ?_
    rw [Shape.rowMajor_val_one, Shape.rowMajor_val_two]
    show o.val * 4096 + k.val = (o.val * 4096 + k.val) / 128 * 128 + (o.val * 4096 + k.val) % 128
    omega
  · refine (broadcastInDim_apply _ _ _ _ (ix2 ⟨(o.val * 4096 + k.val) / 128, hq⟩ (0 : Fin 1)) ?_).trans ?_
    · intro a
      match a with
      | ⟨0, _⟩ => rfl
      | ⟨1, _⟩ => rfl
    · exact broadcastInDim_apply _ _ _ _ (ix1 ⟨(o.val * 4096 + k.val) / 128, hq⟩) (fun a => match a with | ⟨0, _⟩ => rfl)

/-! ### The code stream: the two code columns side by side, read row by row -/

theorem unpacked_read (h l : IVec S8388608 32) (j : Fin 16777216) :
    shapeCast S16777216
      (concatenate S8388608x2 1
        [⟨S8388608x1, broadcastInDim S8388608x1 ![0] bcast_S8388608_S8388608x1_0 h⟩,
         ⟨S8388608x1, broadcastInDim S8388608x1 ![0] bcast_S8388608_S8388608x1_0 l⟩]
        concatenates_S8388608x1_S8388608x1_S8388608x2_d1)
      shapeCasts_S8388608x2_S16777216 (ix1 j)
    = if j.val % 2 = 0 then h (ix1 ⟨j.val / 2, by omega⟩) else l (ix1 ⟨j.val / 2, by omega⟩) := by
  have hj := j.isLt
  have hq : j.val / 2 < 8388608 := by omega
  refine (shapeCast_apply _ _ (ix1 j) (ix2 ⟨j.val / 2, hq⟩ ⟨j.val % 2, Nat.mod_lt _ (by decide)⟩) ?_).trans ?_
  · rw [Shape.rowMajor_val_one, Shape.rowMajor_val_two]
    show j.val / 2 * 2 + j.val % 2 = j.val
    omega
  by_cases h0 : j.val % 2 = 0
  · rw [if_pos h0]
    refine (concatenate_pair_apply_left (t := S8388608x2) (s₁ := S8388608x1) (s₂ := S8388608x1) 1 _ _ _ _ rfl (ix2 ⟨j.val / 2, hq⟩ (0 : Fin 1)) ?_).trans ?_
    · intro b
      match b with
      | ⟨0, _⟩ => rfl
      | ⟨1, _⟩ => exact h0.symm
    · exact broadcastInDim_apply _ _ _ _ (ix1 ⟨j.val / 2, hq⟩) (fun a => match a with | ⟨0, _⟩ => rfl)
  · rw [if_neg h0]
    refine (concatenate_pair_apply_right (t := S8388608x2) (s₁ := S8388608x1) (s₂ := S8388608x1) 1 _ _ _ _ rfl rfl (ix2 ⟨j.val / 2, hq⟩ (0 : Fin 1)) ?_ ?_).trans ?_
    · intro b hb
      match b, hb with
      | ⟨0, _⟩, _ => rfl
      | ⟨1, _⟩, hb => exact absurd rfl hb
    · show 0 + 1 = j.val % 2
      omega
    · exact broadcastInDim_apply _ _ _ _ (ix1 ⟨j.val / 2, hq⟩) (fun a => match a with | ⟨0, _⟩ => rfl)

/-! ### The table lookup: the table at the index word, read signed and clamped into the table -/

theorem gather_read {α : Type} (tbl : S8.Idx → α) (ids : IVec S16777216 32) (j : Fin 16777216) :
    Host.gather gather_S8_S16777216x1_S16777216_n_0_n_n_0_1_1 tbl
      (broadcastInDim S16777216x1 ![0] bcast_S16777216_S16777216x1_0 ids) (ix1 j)
    = tbl (ix1 ⟨min (ids (ix1 j)).toInt.toNat 7, by omega⟩) := by
  have e1 : (ix1 j : S16777216.Idx) = Shape.Idx.ofFin j := by
    funext a
    match a with
    | ⟨0, _⟩ => rfl
  have e2 : broadcastInDim S16777216x1 ![0] bcast_S16777216_S16777216x1_0 ids (StableHlo.Predicate.ixP j) = ids (ix1 j) :=
    broadcastInDim_apply _ _ _ _ (ix1 j) (fun a => match a with | ⟨0, _⟩ => rfl)
  have e3 : Host.gather gather_S8_S16777216x1_S16777216_n_0_n_n_0_1_1 tbl
        (broadcastInDim S16777216x1 ![0] bcast_S16777216_S16777216x1_0 ids) (ix1 j)
      = Host.gather gather_S8_S16777216x1_S16777216_n_0_n_n_0_1_1 tbl
        (broadcastInDim S16777216x1 ![0] bcast_S16777216_S16777216x1_0 ids) (Shape.Idx.ofFin j) := by rw [e1]
  refine e3.trans ?_
  refine (StableHlo.Predicate.gather_take _ rfl rfl rfl rfl tbl _ j (by decide)).trans (congrArg tbl ?_)
  funext a
  apply Fin.ext
  match a with
  | ⟨0, _⟩ =>
    show min (broadcastInDim S16777216x1 ![0] bcast_S16777216_S16777216x1_0 ids (StableHlo.Predicate.ixP j)).toInt.toNat (8 - 1) = _
    rw [e2]

end Pieces

/-! ### Words: the sixteen codes

On a word below sixteen: its bits 2..0 as a word are not negative, read signed and clamped into the table they are
the word's remainder by eight, and bit 3 (the word shifted right by three, masked with one) is one exactly when the
quotient by eight is odd. Sixteen cases, decided. -/

/-- The three word facts the table-lookup chain needs of a code. -/
def WordFacts (n : BitVec 32) : Prop :=
  IntOp.cmpi .slt (IntOp.andi n 7#32) 0#32 = 0#1 ∧
  min (IntOp.andi n 7#32).toInt.toNat 7 = n.toNat % 8 ∧
  (IntOp.cmpi .eq (IntOp.andi (IntOp.shrsi .host n 3#32) 1#32) 1#32 = 1#1 ↔ n.toNat / 8 % 2 = 1)

instance (n : BitVec 32) : Decidable (WordFacts n) := by unfold WordFacts; infer_instance

theorem wordFacts16 : ∀ m : Fin 16, WordFacts (BitVec.ofNat 32 m.val) := by decide

theorem wordFacts (n : BitVec 32) (hn : n.toNat < 16) : WordFacts n := by
  have hm : BitVec.ofNat 32 (⟨n.toNat, hn⟩ : Fin 16).val = n := by
    apply BitVec.eq_of_toNat_eq
    show (BitVec.ofNat 32 n.toNat).toNat = n.toNat
    rw [BitVec.toNat_ofNat]
    omega
  have h := wordFacts16 ⟨n.toNat, hn⟩
  rw [hm] at h
  exact h

/-- The program's table of literals is the specification's. -/
theorem lit0_eq_lut : ∀ q : Fin 8, lit0 q = Cert.Fp4.lut q := by decide

/-! ### The stages at an index -/

section Stages

variable [Cert.ReferenceIdeal.Facts]
open Facts₀

/-- The table at position q holds the q-th magnitude. -/
theorem table_read (q : Fin 8) : table (F := Ideal) (ix1 q) = Ideal.ofBits .f32 (Cert.Fp4.lut q) := by
  show Ideal.ofBits .f32 (lit0 (S8.rowMajor (ix1 q))) = _
  have e : S8.rowMajor (ix1 q) = q := Fin.ext (Shape.rowMajor_val_one _)
  rw [e, lit0_eq_lut]

theorem table_at (a : Nat) (ha : a < 8) (r : Nat) (hr : r < 8) (h : a = r) :
    table (F := Ideal) (ix1 ⟨a, ha⟩) = Ideal.ofBits .f32 (Cert.Fp4.lut ⟨r, hr⟩) := by
  subst h
  exact table_read _

/-- The high code of word q: at the amount four the host's arithmetic shift is the vector unit's. -/
theorem hi_read (p : IVec S8388608 32) (q : Fin 8388608) : hi (F := Ideal) p (ix1 q) = Cert.Fp4.hiNib (p (ix1 q)) := by
  show IntOp.andi (IntOp.shrsi .host (p (ix1 q)) 4#32) 15#32 = IntOp.andi (IntOp.shrsi .vector (p (ix1 q)) 4#32) 15#32
  rw [shrsi_unit .host .vector]

/-- The low code of word q. -/
theorem lo_read (p : IVec S8388608 32) (q : Fin 8388608) : lo (F := Ideal) p (ix1 q) = Cert.Fp4.loNib (p (ix1 q)) := rfl

/-- Code number j of the stream is the specification's. -/
theorem unpacked_eq_code (p : IVec S8388608 32) (j : Fin 16777216) : unpacked (F := Ideal) p (ix1 j) = Cert.Fp4.code p j := by
  refine (unpacked_read (hi (F := Ideal) p) (lo (F := Ideal) p) j).trans ?_
  unfold Cert.Fp4.code
  by_cases h0 : j.val % 2 = 0
  · rw [if_pos h0, if_pos h0]
    exact hi_read p _
  · rw [if_neg h0, if_neg h0]
    exact lo_read p _

/-- A code is a word below sixteen. -/
theorem code_lt (p : IVec S8388608 32) (j : Fin 16777216) : (Cert.Fp4.code p j).toNat < 16 := by
  unfold Cert.Fp4.code
  split
  · exact Cert.Fp4.hiNib_lt _
  · exact Cert.Fp4.loNib_lt _

/-- Value number j of the stream is the table-lookup chain of the specification at code number j. -/
theorem vals_read (p : IVec S8388608 32) (j : Fin 16777216) (hn : (unpacked (F := Ideal) p (ix1 j)).toNat < 16) :
    vals (F := Ideal) p (ix1 j) = Cert.Fp4.rdec (unpacked (F := Ideal) p (ix1 j)) := by
  obtain ⟨h1, h2, h3⟩ := wordFacts _ hn
  have hw : idxWrapped (F := Ideal) p (ix1 j) = IntOp.andi (unpacked (F := Ideal) p (ix1 j)) 7#32 := by
    show Scalar.select (IntOp.cmpi .slt (IntOp.andi (unpacked (F := Ideal) p (ix1 j)) 7#32) 0#32)
      (IntOp.addi (IntOp.andi (unpacked (F := Ideal) p (ix1 j)) 7#32) 8#32) (IntOp.andi (unpacked (F := Ideal) p (ix1 j)) 7#32) = _
    rw [h1, select_zero]
  have hmag : mags (F := Ideal) p (ix1 j)
      = Ideal.ofBits .f32 (Cert.Fp4.lut ⟨(unpacked (F := Ideal) p (ix1 j)).toNat % 8, Nat.mod_lt _ (by decide)⟩) :=
    (gather_read (table (F := Ideal)) (idxWrapped (F := Ideal) p) j).trans
      (table_at _ _ _ _ (by rw [hw]; exact h2))
  show Scalar.select (IntOp.cmpi .eq (IntOp.andi (IntOp.shrsi .host (unpacked (F := Ideal) p (ix1 j)) 3#32) 1#32) 1#32)
    (-(mags (F := Ideal) p (ix1 j))) (mags (F := Ideal) p (ix1 j)) = _
  rw [hmag]
  unfold Cert.Fp4.rdec
  by_cases hs : (unpacked (F := Ideal) p (ix1 j)).toNat / 8 % 2 = 1
  · rw [h3.mpr hs, select_one]
    exact (if_pos hs).symm
  · rw [eq_zero_of_ne_one (fun h => hs (h3.mp h)), select_zero]
    exact (if_neg hs).symm

/-- Entry (o, k) of the weight matrix is the specification's. -/
theorem weight_read (p : IVec S8388608 32) (s : FVec Ideal S131072 .f32) (o k : Fin 4096) :
    wmat (F := Ideal) p s (ix2 o k) = Cert.Fp4.weight p s o k := by
  refine (wmat_read (vals (F := Ideal) p) s o k).trans ?_
  unfold Cert.Fp4.weight
  congr 1
  have hc := unpacked_eq_code p ⟨o.val * 4096 + k.val, by omega⟩
  rw [vals_read p _ (by rw [hc]; exact code_lt p _), hc]
  exact Cert.Fp4.rdec_eq _ (code_lt p _)

/-- The term at (b, t, o) is the specification's result there. -/
theorem term_read (x : FVec Ideal S4x2048x4096 .f32) (p : IVec S8388608 32) (s : FVec Ideal S131072 .f32)
    (b : FVec Ideal S4096 .f32) (bb : Fin 4) (tt : Fin 2048) (o : Fin 4096) :
    term (F := Ideal) x p s b (ix3 bb tt o) = Cert.Fp4.out x p s b bb tt o := by
  show Host.dotGeneral (F := Ideal) dot_S4x2048x4096_S4096x4096_S4x2048x4096_2_1_01_0_n_n none x (wmat (F := Ideal) p s) (ix3 bb tt o)
      + broadcastInDim S4x2048x4096 ![0, 1, 2] bcast_S1x1x4096_S4x2048x4096_0_1_2
          (broadcastInDim S1x1x4096 ![2] bcast_S4096_S1x1x4096_2 b) (ix3 bb tt o) = _
  rw [dot_apply, bias_apply]
  unfold Cert.Fp4.out
  congr 1
  refine Finset.sum_congr rfl fun k _ => ?_
  rw [weight_read]

theorem term_eq (x : FVec Ideal S4x2048x4096 .f32) (p : IVec S8388608 32) (s : FVec Ideal S131072 .f32)
    (b : FVec Ideal S4096 .f32) :
    term (F := Ideal) x p s b = Cert.Fp4.result x p s b := by
  funext i
  obtain ⟨bb, tt, o, rfl⟩ : ∃ bb tt o, i = ix3 bb tt o := ⟨i 0, i 1, i 2, eq_ix3 i⟩
  exact term_read x p s b bb tt o

end Stages

end Cert.ReferenceIdeal.RefValue

end
-- ==== Proof.lean ====
/-
  The certificate's five claims.

  The two kernel programs (the one read at the word level, and its idealization, which rewrote no operation) run to the
  end, fault nowhere and leave their argument arrays as launched: @main is host operations around two kernel regions,
  each region's body obligation is proved point by point, and the regions are chained over the contents every unscoped
  buffer holds between items. The reference is host operations only: its run is their composed term. The idealization
  rewrote nothing, so it is preserved trivially. For the equivalence, both results are one function of the argument
  arrays over the extended reals: the input's rows contracted with the matrix of decoded 4-bit codes — sign bit and
  a magnitude among 0, 1/2, 1, 3/2, 2, 3, 4, 6 — each scaled by its block of 128's scale, plus the bias. The kernel
  decodes a code by arithmetic on its bits and the reference by a table lookup; on each of the sixteen codes the two
  agree. The kernel splits the code stream into the words' high and low codes and interleaves them again, the
  reference interleaves first: code 4096 o + k of the stream is code k mod 2 of word 2048 o + k / 2 either way.
-/
import proofs.«415060_j42649025249834_3_alg».proof.Defs
import proofs.«415060_j42649025249834_3_alg».proof.Proof.Gen.Kernel
import proofs.«415060_j42649025249834_3_alg».proof.Proof.Gen.KernelIdeal
import proofs.«415060_j42649025249834_3_alg».proof.Proof.Gen.ReferenceIdeal
import proofs.«415060_j42649025249834_3_alg».proof.Proof.Gen.Pre_finite_inputs
import proofs.«415060_j42649025249834_3_alg».proof.Proof.BKRun
import proofs.«415060_j42649025249834_3_alg».proof.Proof.KRun
import proofs.«415060_j42649025249834_3_alg».proof.Proof.KValue
import proofs.«415060_j42649025249834_3_alg».proof.Proof.RefRun
import proofs.«415060_j42649025249834_3_alg».proof.Proof.RefRead
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both idealized programs end at the specification's result of the argument arrays. -/
theorem algebraic : Cert.algebraic_KernelIdeal_ReferenceIdeal := by
  intro m ρ m' ρ' _ hagree
  refine ⟨fun c => Cert.Fp4.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c), (h c).2⟩)
      (Cert.KernelIdeal.Hand.run_result (F := Ideal) m ρ)
  · refine (θ_run Cert.ReferenceIdeal.defs _ _).mono (fun _ h c => ⟨?_, (h c).2⟩)
      (Cert.ReferenceIdeal.RefValue.run (F := Ideal) m' ρ')
    rw [(h c).1, Cert.ReferenceIdeal.RefValue.term_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
